-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x4096x4096 : Shape := ⟨3, ![2, 4096, 4096]⟩
abbrev S2x128x64 : Shape := ⟨3, ![2, 128, 64]⟩
abbrev S2x64 : Shape := ⟨2, ![2, 64]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S2x64 .f32) (main_arg5 : FVec F S2x128x64 .f32) (main_arg6 : FVec F S2x64 .f32) (main_arg7 : FVec F S128x128 .f32) (main_arg8 : FVec F S128 .f32) (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x128x64 .f32 := Host.absf main_arg5
  let main_cst_8 : FVec F S_ .f32 := constant S_ .f32 0x7F800000#32
  let main_v25 : FVec F S2x128x64 .f32 := broadcastInDim S2x128x64 ![] bcast_S_S2x128x64 main_cst_8
  let main_v26 : IVec S2x128x64 1 := cmpf .olt main_v24 main_v25
  let main_c_9 : IVec S_ 1 := constantI S_ 1 1#1
  let main_v27 : IVec S_ 1 := (fun x v => Host.reduce IntOp.andi x v reducesTo_S2x128x64_S_d0_1_2 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S2x4096x4096 .f32) (main_arg2 : FVec F S2x4096x4096 .f32) (main_arg3 : FVec F S2x128x64 .f32) (main_arg4 : FVec F S2x64 .f32) (main_arg5 : FVec F S2x128x64 .f32) (main_arg6 : FVec F S2x64 .f32) (main_arg7 : FVec F S128x128 .f32) (main_arg8 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S2x4096x4096 .f32 := Host.absf main_arg2
  let main_cst_2 : FVec F S_ .f32 := constant S_ .f32 0x7F800000#32
  let main_v10 : FVec F S2x4096x4096 .f32 := broadcastInDim S2x4096x4096 ![] bcast_S_S2x4096x4096 main_cst_2
  let main_v11 : IVec S2x4096x4096 1 := cmpf .olt main_v9 main_v10
  let main_c_3 : IVec S_ 1 := constantI S_ 1 1#1
  let main_v12 : IVec S_ 1 := (fun x v => Host.reduce IntOp.andi x v reducesTo_S2x4096x4096_S_d0_1_2 h_S_) main_v11 main_c_3
  let main_v13 : IVec S_ 1 := andi main_v8 main_v12
  let main_v14 : FVec F S2x128x64 .f32 := Host.absf main_arg3
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S2x4096x4096 : Shape := ⟨3, ![2, 4096, 4096]⟩
abbrev S2x128x64 : Shape := ⟨3, ![2, 128, 64]⟩
abbrev S2x64 : Shape := ⟨2, ![2, 64]⟩
abbrev S128x128 : Shape := ⟨2, ![128, 128]⟩
abbrev S128 : Shape := ⟨1, ![128]⟩
abbrev S2x256x4096 : Shape := ⟨3, ![2, 256, 4096]⟩
abbrev S256x128 : Shape := ⟨2, ![256, 128]⟩
abbrev S4096x256 : Shape := ⟨2, ![4096, 256]⟩
abbrev S1x128x64 : Shape := ⟨3, ![1, 128, 64]⟩
abbrev S128x64 : Shape := ⟨2, ![128, 64]⟩
abbrev S4096x64 : Shape := ⟨2, ![4096, 64]⟩
abbrev S64 : Shape := ⟨1, ![64]⟩
abbrev S1x256x4096 : Shape := ⟨3, ![1, 256, 4096]⟩
abbrev S256x4096 : Shape := ⟨2, ![256, 4096]⟩
abbrev S256x64 : Shape := ⟨2, ![256, 64]⟩
abbrev S1x128 : Shape := ⟨2, ![1, 128]⟩

abbrev nBuf : Space → Nat
  | .hbm => 10
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S2x4096x4096, .f32⟩
  | .hbm, ⟨2, _⟩ => ⟨S2x4096x4096, .f32⟩
  | .hbm, ⟨3, _⟩ => ⟨S2x128x64, .f32⟩
  | .hbm, ⟨4, _⟩ => ⟨S2x64, .f32⟩
  | .hbm, ⟨5, _⟩ => ⟨S2x128x64, .f32⟩
  | .hbm, ⟨6, _⟩ => ⟨S2x64, .f32⟩
  | .hbm, ⟨7, _⟩ => ⟨S128x128, .f32⟩
  | .hbm, ⟨8, _⟩ => ⟨S128, .f32⟩
  | .hbm, ⟨9, _⟩ => ⟨S4096x128, .f32⟩
  | .local _ .vmem, ⟨0, _⟩ => ⟨S4096x128, .f32⟩
  | .local _ .vmem, ⟨1, _⟩ => ⟨S2x256x4096, .f32⟩
  | .local _ .vmem, ⟨2, _⟩ => ⟨S2x256x4096, .f32⟩
  | .local _ .vmem, ⟨3, _⟩ => ⟨S2x256x4096, .f32⟩
  | .local _ .vmem, ⟨4, _⟩ => ⟨S2x256x4096, .f32⟩
  | .local _ .vmem, ⟨5, _⟩ => ⟨S2x128x64, .f32⟩
  | .local _ .vmem, ⟨6, _⟩ => ⟨S2x64, .f32⟩
  | .local _ .vmem, ⟨7, _⟩ => ⟨S2x128x64, .f32⟩
  | .local _ .vmem, ⟨8, _⟩ => ⟨S2x64, .f32⟩
  | .local _ .vmem, ⟨9, _⟩ => ⟨S128x128, .f32⟩
  | .local _ .vmem, ⟨10, _⟩ => ⟨S128, .f32⟩
  | .local _ .vmem, ⟨11, _⟩ => ⟨S256x128, .f32⟩
  | .local _ .vmem, ⟨12, _⟩ => ⟨S256x128, .f32⟩
  | .local _ .vmem, ⟨13, _⟩ => ⟨S4096x256, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v38 : BitVec 32 := Scalar.muli arg0 c256_i32
  let v39 : Index := Scalar.indexCast v38
  let c0_30 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S4096x256_S4096x64_0_0 : ∀ a, (![0, 0] : Fin 2 → Nat) a + S4096x64.size a ≤ S4096x256.size a
  h_S4096x64 : 0 < S4096x64.numel
  shapeCasts_S4096x64_S4096x64 : S4096x64.ShapeCasts S4096x64
  inb_S4096x256_S4096x64_0_64 : ∀ a, (![0, 64] : Fin 2 → Nat) a + S4096x64.size a ≤ S4096x256.size a
  inb_S2x128x64_S1x128x64_1_0_0 : ∀ a, (![1, 0, 0] : Fin 3 → Nat) a + S1x128x64.size a ≤ S2x128x64.size a
  inb_S4096x256_S4096x64_0_128 : ∀ a, (![0, 128] : Fin 2 → Nat) a + S4096x64.size a ≤ S4096x256.size a
  inb_S4096x256_S4096x64_0_192 : ∀ a, (![0, 192] : Fin 2 → Nat) a + S4096x64.size a ≤ S4096x256.size a
  inb_S2x64_S2x64_0_0 : ∀ a, (![0, 0] : Fin 2 → Nat) a + S2x64.size a ≤ S2x64.size a
  h_S2x64 : 0 < S2x64.numel
  reduces_S2x64_S64 : S2x64.Reduces [0] S64
  concatenates_S64_S64_S128_d0 : Shape.Concatenates [S64, S64] S128 0
  inb_S2x256x4096_S1x256x4096_0_0_0 : ∀ a, (![0, 0, 0] : Fin 3 → Nat) a + S1x256x4096.size a ≤ S2x256x4096.size a
  h_S1x256x4096 : 0 < S1x256x4096.numel
  shapeCasts_S1x256x4096_S256x4096 : S1x256x4096.ShapeCasts S256x4096
  inb_S2x256x4096_S1x256x4096_1_0_0 : ∀ a, (![1, 0, 0] : Fin 3 → Nat) a + S1x256x4096.size a ≤ S2x256x4096.size a
  concatenates_S256x64_S256x64_S256x128_d1 : Shape.Concatenates [S256x64, S256x64] S256x128 1
  shapeCasts_S128_S1x128 : S128.ShapeCasts S1x128
  broadcasts_S1x128_S256x128 : S1x128.Broadcasts S256x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  h_S256x128 : 0 < S256x128.numel
  inb_S256x128_S256x128_0_0 : ∀ a, (![0, 0] : Fin 2 → Nat) a + S256x128.size a ≤ S256x128.size a
  dot_S4096x128_S128x64_S4096x64_1_0_0_1_n_n_wf : DotDims.WF S4096x128 S128x64 S4096x64 [1] [0] [0] [1] [] []
  dot_S256x4096_S4096x64_S256x64_1_0_0_1_n_n_wf : DotDims.WF S256x4096 S4096x64 S256x64 [1] [0] [0] [1] [] []
  dot_S256x128_S128x128_S256x128_1_1_0_0_n_n_wf : DotDims.WF S256x128 S128x128 S256x128 [1] [1] [0] [0] [] []
  hrank0 : 0 < grid0.rank
  k0_off1_inb : ∀ i : grid0.Coords, ∀ a, (k0_off1 i) a + S256x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x4096.size a ≤ S2x4096x4096.size a
  hwx0_1 : ∀ i : grid0.Coords, EltTy.bits .f32 = 32 ∨ (Rect.block (s := S2x4096x4096) S2x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x4096.size a ≤ S2x4096x4096.size a
  hwx0_2 : ∀ i : grid0.Coords, EltTy.bits .f32 = 32 ∨ (Rect.block (s := S2x4096x4096) S2x256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128x64.size a ≤ S2x128x64.size a
  hwx0_3 : ∀ i : grid0.Coords, EltTy.bits .f32 = 32 ∨ (Rect.block (s := S2x128x64) S2x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128x64.size a ≤ S2x128x64.size a
  hwx0_5 : ∀ i : grid0.Coords, EltTy.bits .f32 = 32 ∨ (Rect.block (s := S2x128x64) S2x128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S4096x128.size a
  hwx0_9 : ∀ i : grid0.Coords, EltTy.bits .f32 = 32 ∨ (Rect.block (s := S4096x128) S256x128.size (cc0_transform_9 i) (hinb0_9 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128 : Shape := ⟨2, ![4096, 128]⟩
abbrev S2x4096x4096 : Shape := ⟨3, ![2, 4096, 4096]⟩
abbrev S2x128x64 : Shape := ⟨3, ![2, 128, 64]⟩
abbrev S2x64 : Shape := ⟨2, ![2, 64]⟩
abbrev S128x128 : Shape := ⟨2, ![128, 128]⟩
abbrev S128 : Shape := ⟨1, ![128]⟩
abbrev S_ : Shape := ⟨0, ![]⟩
abbrev S1x4096x4096 : Shape := ⟨3, ![1, 4096, 4096]⟩
abbrev S4096x4096 : Shape := ⟨2, ![4096, 4096]⟩
abbrev S1x128x64 : Shape := ⟨3, ![1, 128, 64]⟩
abbrev S128x64 : Shape := ⟨2, ![128, 64]⟩
abbrev S4096x64 : Shape := ⟨2, ![4096, 64]⟩
abbrev S1x64 : Shape := ⟨2, ![1, 64]⟩
abbrev S64 : Shape := ⟨1, ![64]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x4096x4096, .f32⟩
  | .hbm, ⟨2, _⟩ => ⟨S2x4096x4096, .f32⟩
  | .hbm, ⟨3, _⟩ => ⟨S2x128x64, .f32⟩
  | .hbm, ⟨4, _⟩ => ⟨S2x64, .f32⟩
  | .hbm, ⟨5, _⟩ => ⟨S2x128x64, .f32⟩
  | .hbm, ⟨6, _⟩ => ⟨S2x64, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S4096x128, .f32⟩
  | .hbm, ⟨11, _⟩ => ⟨S1x4096x4096, .f32⟩
  | .hbm, ⟨12, _⟩ => ⟨S4096x4096, .f32⟩
  | .hbm, ⟨13, _⟩ => ⟨S1x128x64, .f32⟩
  | .hbm, ⟨14, _⟩ => ⟨S128x64, .f32⟩
  | .hbm, ⟨15, _⟩ => ⟨S4096x64, .f32⟩
  | .hbm, ⟨16, _⟩ => ⟨S4096x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S1x4096x4096, .f32⟩
  | .hbm, ⟨23, _⟩ => ⟨S4096x4096, .f32⟩
  | .hbm, ⟨24, _⟩ => ⟨S1x128x64, .f32⟩
  | .hbm, ⟨25, _⟩ => ⟨S128x64, .f32⟩
  | .hbm, ⟨26, _⟩ => ⟨S4096x64, .f32⟩
  | .hbm, ⟨27, _⟩ => ⟨S4096x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S4096x128, .f32⟩
  | .hbm, ⟨34, _⟩ => ⟨S4096x128, .f32⟩
  | .hbm, ⟨35, _⟩ => ⟨S1x4096x4096, .f32⟩
  | .hbm, ⟨36, _⟩ => ⟨S4096x4096, .f32⟩
  | .hbm, ⟨37, _⟩ => ⟨S1x128x64, .f32⟩
  | .hbm, ⟨38, _⟩ => ⟨S128x64, .f32⟩
  | .hbm, ⟨39, _⟩ => ⟨S4096x64, .f32⟩
  | .hbm, ⟨40, _⟩ => ⟨S4096x64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S4096x64, .f32⟩
  | .hbm, ⟨45, _⟩ => ⟨S4096x64, .f32⟩
  | .hbm, ⟨46, _⟩ => ⟨S1x4096x4096, .f32⟩
  | .hbm, ⟨47, _⟩ => ⟨S4096x4096, .f32⟩
  | .hbm, ⟨48, _⟩ => ⟨S1x128x64, .f32⟩
  | .hbm, ⟨49, _⟩ => ⟨S128x64, .f32⟩
  | .hbm, ⟨50, _⟩ => ⟨S4096x64, .f32⟩
  | .hbm, ⟨51, _⟩ => ⟨S4096x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S4096x64, .f32⟩
  | .hbm, ⟨56, _⟩ => ⟨S4096x64, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S4096x128, .f32⟩
  | .hbm, ⟨61, _⟩ => ⟨S4096x128, .f32⟩
  | .hbm, ⟨62, _⟩ => ⟨S128x128, .f32⟩
  | .hbm, ⟨63, _⟩ => ⟨S4096x128, .f32⟩
  | .hbm, ⟨64, _⟩ => ⟨S1x128, .f32⟩
  | .hbm, ⟨65, _⟩ => ⟨S4096x128, .f32⟩
  | .hbm, ⟨66, _⟩ => ⟨S4096x128, .f32⟩
  | .hbm, ⟨67, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_call0_cst : Ref sig .tc := ⟨.hbm, 59, rfl⟩
abbrev main_call0_v0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  slices_S2x4096x4096_S1x4096x4096_0_0_0 : S2x4096x4096.Slices ![0, 0, 0] S1x4096x4096
  shapeCasts_S1x4096x4096_S4096x4096 : S1x4096x4096.ShapeCasts S4096x4096
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S4096x64_S4096x64_S4096x128_d1 : Shape.Concatenates [S4096x64, S4096x64] S4096x128 1
  slices_S2x4096x4096_S1x4096x4096_1_0_0 : S2x4096x4096.Slices ![1, 0, 0] S1x4096x4096
  slices_S2x128x64_S1x128x64_1_0_0 : S2x128x64.Slices ![1, 0, 0] S1x128x64
  slices_S2x64_S1x64_1_0 : S2x64.Slices ![1, 0] S1x64
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x128_S128x128_S4096x128_1_0_0_1_n_n_wf : DotDims.WF S4096x128 S128x128 S4096x128 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.Pieces.lean ====
/-
  What one grid point leaves behind, as functions of the values it loads.

  The kernel keeps a 4096 x 256 scratch holding the four projections of the node features side by side,
      [ x . W_bw 0 | x . W_fw 0 | x . W_bw 1 | x . W_fw 1 ]      (64 columns each),
  which the first grid point fills strip by strip and every later point only reads. Each point then writes one
  256 x 128 block of the result: the two relations' adjacency rows times the matching strips, summed per direction, the
  two directions side by side, plus the summed biases, rectified, through the output layer, plus the block's own rows
  of the node features.

  Here the scratch after the first point (firstScratch) and the block a point writes from a given scratch (block) are
  named, and the frame's terms for the two control cases are shown to be these.
-/
import proofs.«176645_g10471130268014_cont_sun_c4_278_25_alg».proof.Proof.Gen.KernelIdeal.Frame
import Idealize.ShloMosaic.Lib.Pipeline.Value

set_option maxRecDepth 16384

noncomputable section

namespace Cert.BiGcn.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The four stores of the first grid point, last first: strip q (columns 64 q .. 64 q + 63) receives the node
    features times one 128 x 64 weight matrix. -/
def strips (x0 : Vec F S4096x128 .f32) (x3 x5 : Vec F S2x128x64 .f32) : List (View.Piece (Elt F) S4096x256 .f32) :=
  [⟨(Rect.unit ![0, 192] S4096x64.size inb_S4096x256_S4096x64_0_192), k0_pay5 (View.ld x0 (Rect.unit ![0, 0] S4096x128.size inb_S4096x128_S4096x128_0_0)) (View.ld x3 (Rect.unit ![1, 0, 0] S1x128x64.size inb_S2x128x64_S1x128x64_1_0_0))⟩,
   ⟨(Rect.unit ![0, 128] S4096x64.size inb_S4096x256_S4096x64_0_128), k0_pay4 (View.ld x0 (Rect.unit ![0, 0] S4096x128.size inb_S4096x128_S4096x128_0_0)) (View.ld x5 (Rect.unit ![1, 0, 0] S1x128x64.size inb_S2x128x64_S1x128x64_1_0_0))⟩,
   ⟨(Rect.unit ![0, 64] S4096x64.size inb_S4096x256_S4096x64_0_64), k0_pay3 (View.ld x0 (Rect.unit ![0, 0] S4096x128.size inb_S4096x128_S4096x128_0_0)) (View.ld x3 (Rect.unit ![0, 0, 0] S1x128x64.size inb_S2x128x64_S1x128x64_0_0_0))⟩,
   ⟨(Rect.unit ![0, 0] S4096x64.size inb_S4096x256_S4096x64_0_0), k0_pay2 (View.ld x0 (Rect.unit ![0, 0] S4096x128.size inb_S4096x128_S4096x128_0_0)) (View.ld x5 (Rect.unit ![0, 0, 0] S1x128x64.size inb_S2x128x64_S1x128x64_0_0_0))⟩]

/-- The scratch as the first grid point leaves it. -/
def firstScratch (x0 : Vec F S4096x128 .f32) (x3 x5 : Vec F S2x128x64 .f32) : Vec F S4096x256 .f32 :=
  View.canon (strips x0 x3 x5)

/-- The block a grid point writes, from the values it loads and the scratch S it finds. -/
def block (i : grid0.Coords) (x0 : Vec F S4096x128 .f32) (x1 x2 : Vec F S2x256x4096 .f32) (x4 x6 : Vec F S2x64 .f32)
    (x7 : Vec F S128x128 .f32) (x8 : Vec F S128 .f32) (S : Vec F S4096x256 .f32) : Vec F S256x128 .f32 :=
  k0_pay1
    (k0_pay6 (View.ld x6 (Rect.unit ![0, 0] S2x64.size inb_S2x64_S2x64_0_0)) (View.ld x4 (Rect.unit ![0, 0] S2x64.size inb_S2x64_S2x64_0_0)))
    (k0_pay7 (View.ld x2 (Rect.unit ![0, 0, 0] S1x256x4096.size inb_S2x256x4096_S1x256x4096_0_0_0)) (View.ld S (Rect.unit ![0, 0] S4096x64.size inb_S4096x256_S4096x64_0_0)) (View.ld x2 (Rect.unit ![1, 0, 0] S1x256x4096.size inb_S2x256x4096_S1x256x4096_1_0_0)) (View.ld S (Rect.unit ![0, 128] S4096x64.size inb_S4096x256_S4096x64_0_128)))
    (k0_pay8 (View.ld x1 (Rect.unit ![0, 0, 0] S1x256x4096.size inb_S2x256x4096_S1x256x4096_0_0_0)) (View.ld S (Rect.unit ![0, 64] S4096x64.size inb_S4096x256_S4096x64_0_64)) (View.ld x1 (Rect.unit ![1, 0, 0] S1x256x4096.size inb_S2x256x4096_S1x256x4096_1_0_0)) (View.ld S (Rect.unit ![0, 192] S4096x64.size inb_S4096x256_S4096x64_0_192)))
    (View.ld x7 (Rect.unit ![0, 0] S128x128.size inb_S128x128_S128x128_0_0))
    (View.ld x8 (Rect.unit ![0] S128.size inb_S128_S128_0))
    (View.ld x0 (Rect.unit (k0_off1 i) S256x128.size (k0_off1_inb i)))

section
variable (c : Dev nD) (i : grid0.Coords) (arg1 : Memref sig .tc .vmem S4096x128 .f32) (harg1 : arg1.IsWhole) (arg2 : Memref sig .tc .vmem S2x256x4096 .f32) (harg2 : arg2.IsWhole) (arg3 : Memref sig .tc .vmem S2x256x4096 .f32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2x128x64 .f32) (harg6 : arg6.IsWhole) (arg7 : Memref sig .tc .vmem S2x64 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S4096x256 .f32) (harg11 : arg11.IsWhole)
variable (x0 : Vec F S4096x128 .f32) (x1 : Vec F S2x256x4096 .f32) (x2 : Vec F S2x256x4096 .f32) (x3 : Vec F S2x128x64 .f32) (x4 : Vec F S2x64 .f32) (x5 : Vec F S2x128x64 .f32) (x6 : Vec F S2x64 .f32) (x7 : Vec F S128x128 .f32) (x8 : Vec F S128 .f32)

/-- At the first point the scratch ends as firstScratch: the run's four stores are the strips. -/
theorem scratch_first (hc0 : cond0_0 i) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 x8 = firstScratch x0 x3 x5 := by
  unfold sout0_A_0
  rw [View.read_writes_junk_eq_canon]
  unfold kernelRun0_A
  dsimp only
  sl_unfold_words
  simp only [View.readAt_eq_ld, harg1.read_unread, harg4.read_unread, harg6.read_unread]
  rfl

end

/-- The zero offsets of a rank-2 rectangle, as the constant function. -/
theorem zero2 : (![0, 0] : Fin 2 → Nat) = fun _ => 0 := by
  funext a; match a with | ⟨0, _⟩ => rfl | ⟨1, _⟩ => rfl

section
variable (c : Dev nD) (i : grid0.Coords) (arg1 : Memref sig .tc .vmem S4096x128 .f32) (harg1 : arg1.IsWhole) (arg2 : Memref sig .tc .vmem S2x256x4096 .f32) (harg2 : arg2.IsWhole) (arg3 : Memref sig .tc .vmem S2x256x4096 .f32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2x128x64 .f32) (harg6 : arg6.IsWhole) (arg7 : Memref sig .tc .vmem S2x64 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S4096x256 .f32) (harg11 : arg11.IsWhole)
variable (x0 : Vec F S4096x128 .f32) (x1 : Vec F S2x256x4096 .f32) (x2 : Vec F S2x256x4096 .f32) (x3 : Vec F S2x128x64 .f32) (x4 : Vec F S2x64 .f32) (x5 : Vec F S2x128x64 .f32) (x6 : Vec F S2x64 .f32) (x7 : Vec F S128x128 .f32) (x8 : Vec F S128 .f32)

/-- At a later point the block is written from the scratch the point before left. -/
theorem block_later (hc0 : ¬cond0_0 i) (xs0 : Vec F S4096x256 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 = block i x0 x1 x2 x4 x6 x7 x8 xs0 := by
  unfold out0_B_9
  rw [View.read_writes_junk_eq_canon]
  unfold kernelRun0_B
  dsimp only
  sl_unfold_words
  rw [View.canon_unit_zero zero2]
  simp only [View.readAt_eq_ld, harg1.read_unread, harg2.read_unread, harg3.read_unread, harg5.read_unread,
    harg7.read_unread, harg8.read_unread, harg9.read_unread, harg11.read_unread]
  rfl

/-- At the first point the block is written from the scratch that same point has just filled. -/
theorem block_first (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 = block i x0 x1 x2 x4 x6 x7 x8 (firstScratch x0 x3 x5) := by
  unfold out0_A_9
  rw [View.read_writes_junk_eq_canon]
  unfold kernelRun0_A
  dsimp only
  sl_unfold_words
  rw [View.canon_unit_zero zero2]
  simp only [View.readAt_eq_ld, View.readCov_eq_canon', harg1.read_unread, harg2.read_unread, harg3.read_unread,
    harg4.read_unread, harg5.read_unread, harg6.read_unread, harg7.read_unread, harg8.read_unread, harg9.read_unread]
  rfl

end

end Cert.BiGcn.Pieces

end
-- ==== Proof.Spec.lean ====
/-
  The value both programs compute, stated once as a function of the argument arrays over the extended reals.

  Node features x (4096 nodes, 128 features); for each of two relations i a forward and a backward adjacency
  matrix fw i, bw i (4096 x 4096), weights W_fw i, W_bw i (128 x 64) and biases b_fw i, b_bw i (64); an output
  layer W1 (128 x 128), b1 (128).

    proj x W i n j          = sum over a of  x n a * W i a j                      (the projection x . W i)
    agg A x W i r j         = sum over n of  A i r n * proj x W i n j             (A i . (x . W i))
    half A x W b r j        = (agg .. 0 r j + agg .. 1 r j) + (b 0 j + b 1 j)     (both relations, with their biases)
    pre r k                 = half bw .. r k            for k < 64   (the backward half, columns 0..63)
                            = half fw .. r (k - 64)     for k >= 64  (the forward half, columns 64..127)
    out r c                 = (sum over k of  max (pre r k) 0 * W1 c k  +  b1 c)  +  x r c

  Addition on the extended reals is commutative and associative and has 0 as unit (bot + top = bot is part of the
  definition and does not disturb these laws), so the order in which the two relations' products and biases are
  added does not matter; no distributivity is used anywhere, hence no finiteness of the inputs.
-/
import Idealize.ShloMosaic.PureOps.Ideal
import Idealize.ShloMosaic.PureOps.Ideal.Laws
import Idealize.ShloMosaic.Lib.ValueIdx

noncomputable section

namespace Cert.BiGcn

open Idealize.ShloMosaic Idealize.ShloMosaic.ValueIdx
open scoped BigOperators

/-- Node features and the result: 4096 nodes by 128 features. -/
abbrev SNodes : Shape := ⟨2, ![4096, 128]⟩
/-- Two stacked adjacency matrices. -/
abbrev SAdj : Shape := ⟨3, ![2, 4096, 4096]⟩
/-- Two stacked projection matrices. -/
abbrev SProj : Shape := ⟨3, ![2, 128, 64]⟩
/-- Two stacked bias rows. -/
abbrev SBias : Shape := ⟨2, ![2, 64]⟩
/-- The output layer's matrix. -/
abbrev SOut : Shape := ⟨2, ![128, 128]⟩
/-- The output layer's bias. -/
abbrev SVec : Shape := ⟨1, ![128]⟩

/-- The projection of node n's features by relation i's weights, at output feature j. -/
def proj (x : SNodes.Idx → EReal) (W : SProj.Idx → EReal) (i : Fin 2) (n : Fin 4096) (j : Fin 64) : EReal :=
  ∑ a : Fin 128, x (ix2 n a) * W (ix3 i a j)

/-- Relation i's adjacency applied to the projected features: node r gathers from every node n. -/
def agg (A : SAdj.Idx → EReal) (x : SNodes.Idx → EReal) (W : SProj.Idx → EReal) (i : Fin 2) (r : Fin 4096) (j : Fin 64) : EReal :=
  ∑ n : Fin 4096, A (ix3 i r n) * proj x W i n j

/-- One direction's half of the pre-activation: both relations' aggregates, then both relations' biases. -/
def half (A : SAdj.Idx → EReal) (x : SNodes.Idx → EReal) (W : SProj.Idx → EReal) (b : SBias.Idx → EReal)
    (r : Fin 4096) (j : Fin 64) : EReal :=
  (agg A x W 0 r j + agg A x W 1 r j) + (b (ix2 0 j) + b (ix2 1 j))

/-- The pre-activation: the backward half in columns 0..63, the forward half in columns 64..127. -/
def pre (x : SNodes.Idx → EReal) (fw bw : SAdj.Idx → EReal) (Wfw : SProj.Idx → EReal) (bfw : SBias.Idx → EReal)
    (Wbw : SProj.Idx → EReal) (bbw : SBias.Idx → EReal) (r : Fin 4096) (k : Fin 128) : EReal :=
  if h : k.val < 64 then half bw x Wbw bbw r ⟨k.val, h⟩
  else half fw x Wfw bfw r ⟨k.val - 64, by have := k.isLt; omega⟩

/-- The result at node r, feature c: the rectified pre-activation through the output layer, plus the residual. -/
def outAt (x : SNodes.Idx → EReal) (fw bw : SAdj.Idx → EReal) (Wfw : SProj.Idx → EReal) (bfw : SBias.Idx → EReal)
    (Wbw : SProj.Idx → EReal) (bbw : SBias.Idx → EReal) (W1 : SOut.Idx → EReal) (b1 : SVec.Idx → EReal)
    (r : Fin 4096) (c : Fin 128) : EReal :=
  (∑ k : Fin 128, max (pre x fw bw Wfw bfw Wbw bbw r k) 0 * W1 (ix2 c k) + b1 (ix1 c)) + x (ix2 r c)

/-- The whole result array. -/
def out (x : SNodes.Idx → EReal) (fw bw : SAdj.Idx → EReal) (Wfw : SProj.Idx → EReal) (bfw : SBias.Idx → EReal)
    (Wbw : SProj.Idx → EReal) (bbw : SBias.Idx → EReal) (W1 : SOut.Idx → EReal) (b1 : SVec.Idx → EReal) :
    SNodes.Idx → EReal :=
  fun y => outAt x fw bw Wfw bfw Wbw bbw W1 b1 (y 0) (y 1)

theorem out_ix2 (x : SNodes.Idx → EReal) (fw bw : SAdj.Idx → EReal) (Wfw : SProj.Idx → EReal) (bfw : SBias.Idx → EReal)
    (Wbw : SProj.Idx → EReal) (bbw : SBias.Idx → EReal) (W1 : SOut.Idx → EReal) (b1 : SVec.Idx → EReal)
    (r : Fin 4096) (c : Fin 128) :
    out x fw bw Wfw bfw Wbw bbw W1 b1 (ix2 r c) = outAt x fw bw Wfw bfw Wbw bbw W1 b1 r c := rfl

/-- Adding relation by relation from zero, each aggregate with its own bias, is adding the two aggregates and then
    the two biases: commutativity and associativity of addition on the extended reals, and 0 + a = a. -/
theorem add_by_relation (A0 b0 A1 b1 : EReal) : (0 + (A0 + b0)) + (A1 + b1) = (A0 + A1) + (b0 + b1) := by
  rw [zero_add, add_add_add_comm]

/-- The pre-activation in a backward column. -/
theorem pre_lt (x : SNodes.Idx → EReal) (fw bw : SAdj.Idx → EReal) (Wfw : SProj.Idx → EReal) (bfw : SBias.Idx → EReal)
    (Wbw : SProj.Idx → EReal) (bbw : SBias.Idx → EReal) (r : Fin 4096) (k : Fin 128) (j : Fin 64) (h : k.val = j.val) :
    pre x fw bw Wfw bfw Wbw bbw r k = half bw x Wbw bbw r j := by
  unfold pre
  have hk : k.val < 64 := by have := j.isLt; omega
  rw [dif_pos hk]
  exact congrArg _ (Fin.ext h)

/-- The pre-activation in a forward column. -/
theorem pre_ge (x : SNodes.Idx → EReal) (fw bw : SAdj.Idx → EReal) (Wfw : SProj.Idx → EReal) (bfw : SBias.Idx → EReal)
    (Wbw : SProj.Idx → EReal) (bbw : SBias.Idx → EReal) (r : Fin 4096) (k : Fin 128) (j : Fin 64) (h : k.val = 64 + j.val) :
    pre x fw bw Wfw bfw Wbw bbw r k = half fw x Wfw bfw r j := by
  unfold pre
  have hk : ¬ k.val < 64 := by omega
  rw [dif_neg hk]
  exact congrArg _ (Fin.ext (by show k.val - 64 = j.val; omega))

end Cert.BiGcn

end
-- ==== Proof.KernelAt.lean ====
/-
  The kernel's arithmetic read at one entry, over the extended reals.

  Each of the kernel's three kinds of matrix product accumulates into a zero block, so at an entry it is the plain sum
  over the contracted coordinate of the operands' products:
    node features (4096 x 128) times a weight matrix (128 x 64):       sum over a of X n a * W a j
    a block of adjacency rows (256 x 4096) times a strip (4096 x 64):  sum over n of A r n * H n j
    the rectified block (256 x 128) times the output matrix, both contracted on their SECOND coordinate:
                                                                       sum over k of R r k * W1 c k
  (the last one is why no transpose of W1 appears in the kernel).
-/
import proofs.«176645_g10471130268014_cont_sun_c4_278_25_alg».proof.Proof.Pieces
import proofs.«176645_g10471130268014_cont_sun_c4_278_25_alg».proof.Proof.Spec
import Idealize.ShloMosaic.Lib.Pipeline.Value
import Idealize.ShloMosaic.Lib.ValueIdx
import Idealize.ShloMosaic.PureOps.Ideal.Laws

set_option maxRecDepth 16384

noncomputable section

namespace Cert.BiGcn.KernelAt

open Cert.KernelIdeal Cert.KernelIdeal.Gen Cert.BiGcn Cert.BiGcn.Pieces
open Idealize.ShloMosaic Idealize.ShloMosaic.ValueIdx
open scoped BigOperators

/-! ## Where a product's operands are read: one lemma per operand axis -/

theorem lhs_proj_non (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_proj_con (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_proj_con (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_proj_non (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

theorem lhs_agg_non (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs_agg_con (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_agg_con (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_agg_non (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

theorem lhs_outl_non (i : S256x128.Idx) (q : dot_S256x128_S128x128_S256x128_1_1_0_0_n_n.contr.Idx) :
    (dot_S256x128_S128x128_S256x128_1_1_0_0_n_n.lhsIdx i q 0).val = (i 0).val := by
  unfold DotDims.lhsIdx
  rw [dif_neg (show ¬(0 : Fin S256x128.rank) ∈ dot_S256x128_S128x128_S256x128_1_1_0_0_n_n.lhsBatch by decide), dif_pos (show (0 : Fin S256x128.rank) ∈ dot_S256x128_S128x128_S256x128_1_1_0_0_n_n.lhsNonContracting by decide)]
  rfl
theorem lhs_outl_con (i : S256x128.Idx) (q : dot_S256x128_S128x128_S256x128_1_1_0_0_n_n.contr.Idx) :
    (dot_S256x128_S128x128_S256x128_1_1_0_0_n_n.lhsIdx i q 1).val = (q ⟨0, by decide⟩).val :=
  dot_S256x128_S128x128_S256x128_1_1_0_0_n_n.lhsIdx_val_of_single rfl i q
theorem rhs_outl_con (i : S256x128.Idx) (q : dot_S256x128_S128x128_S256x128_1_1_0_0_n_n.contr.Idx) :
    (dot_S256x128_S128x128_S256x128_1_1_0_0_n_n.rhsIdx i q 1).val = (q ⟨0, by decide⟩).val :=
  dot_S256x128_S128x128_S256x128_1_1_0_0_n_n.rhsIdx_val_of_single rfl i q
theorem rhs_outl_non (i : S256x128.Idx) (q : dot_S256x128_S128x128_S256x128_1_1_0_0_n_n.contr.Idx) :
    (dot_S256x128_S128x128_S256x128_1_1_0_0_n_n.rhsIdx i q 0).val = (i 1).val := by
  unfold DotDims.rhsIdx
  rw [dif_neg (show ¬(0 : Fin S128x128.rank) ∈ dot_S256x128_S128x128_S256x128_1_1_0_0_n_n.rhsBatch by decide), dif_pos (show (0 : Fin S128x128.rank) ∈ dot_S256x128_S128x128_S256x128_1_1_0_0_n_n.rhsNonContracting by decide)]
  rfl

/-! ## The three products at an entry -/

/-- Node features times a weight matrix. -/
theorem matmul_proj (X : FVec Ideal S4096x128 .f32) (W : FVec Ideal S128x64 .f32) (n : Fin 4096) (j : Fin 64) :
    matmul dot_S4096x128_S128x64_S4096x64_1_0_0_1_n_n none X W (constant S4096x64 .f32 0x00000000#32) (ix2 n j)
      = ∑ a : Fin 128, X (ix2 n a) * W (ix2 a j) := by
  simp only [matmul]
  rw [Ideal.matmul_constant_zero_apply, ← Equiv.sum_comp (contrEquiv1 dot_S4096x128_S128x64_S4096x64_1_0_0_1_n_n 128 rfl rfl).symm]
  refine Finset.sum_congr rfl fun a _ => ?_
  have hk := contrEquiv1_symm_val dot_S4096x128_S128x64_S4096x64_1_0_0_1_n_n 128 rfl rfl a
  have el : dot_S4096x128_S128x64_S4096x64_1_0_0_1_n_n.lhsIdx (ix2 n j) ((contrEquiv1 dot_S4096x128_S128x64_S4096x64_1_0_0_1_n_n 128 rfl rfl).symm a) = ix2 n a := funext fun b => Fin.ext (by
    match b with
    | ⟨0, _⟩ => exact lhs_proj_non _ _
    | ⟨1, _⟩ => exact (lhs_proj_con _ _).trans hk)
  have er : dot_S4096x128_S128x64_S4096x64_1_0_0_1_n_n.rhsIdx (ix2 n j) ((contrEquiv1 dot_S4096x128_S128x64_S4096x64_1_0_0_1_n_n 128 rfl rfl).symm a) = ix2 a j := funext fun b => Fin.ext (by
    match b with
    | ⟨0, _⟩ => exact (rhs_proj_con _ _).trans hk
    | ⟨1, _⟩ => exact rhs_proj_non _ _)
  rw [el, er]

/-- A block of adjacency rows times a strip of projected features. -/
theorem matmul_agg (A : FVec Ideal S256x4096 .f32) (H : FVec Ideal S4096x64 .f32) (r : Fin 256) (j : Fin 64) :
    matmul dot_S256x4096_S4096x64_S256x64_1_0_0_1_n_n none A H (constant S256x64 .f32 0x00000000#32) (ix2 r j)
      = ∑ n : Fin 4096, A (ix2 r n) * H (ix2 n j) := by
  simp only [matmul]
  rw [Ideal.matmul_constant_zero_apply, ← Equiv.sum_comp (contrEquiv1 dot_S256x4096_S4096x64_S256x64_1_0_0_1_n_n 4096 rfl rfl).symm]
  refine Finset.sum_congr rfl fun n _ => ?_
  have hk := contrEquiv1_symm_val dot_S256x4096_S4096x64_S256x64_1_0_0_1_n_n 4096 rfl rfl n
  have el : dot_S256x4096_S4096x64_S256x64_1_0_0_1_n_n.lhsIdx (ix2 r j) ((contrEquiv1 dot_S256x4096_S4096x64_S256x64_1_0_0_1_n_n 4096 rfl rfl).symm n) = ix2 r n := funext fun b => Fin.ext (by
    match b with
    | ⟨0, _⟩ => exact lhs_agg_non _ _
    | ⟨1, _⟩ => exact (lhs_agg_con _ _).trans hk)
  have er : dot_S256x4096_S4096x64_S256x64_1_0_0_1_n_n.rhsIdx (ix2 r j) ((contrEquiv1 dot_S256x4096_S4096x64_S256x64_1_0_0_1_n_n 4096 rfl rfl).symm n) = ix2 n j := funext fun b => Fin.ext (by
    match b with
    | ⟨0, _⟩ => exact (rhs_agg_con _ _).trans hk
    | ⟨1, _⟩ => exact rhs_agg_non _ _)
  rw [el, er]

/-- The rectified block times the output matrix, each contracted on its second coordinate. -/
theorem matmul_outl (R : FVec Ideal S256x128 .f32) (W : FVec Ideal S128x128 .f32) (r : Fin 256) (c : Fin 128) :
    matmul dot_S256x128_S128x128_S256x128_1_1_0_0_n_n none R W (constant S256x128 .f32 0x00000000#32) (ix2 r c)
      = ∑ k : Fin 128, R (ix2 r k) * W (ix2 c k) := by
  simp only [matmul]
  rw [Ideal.matmul_constant_zero_apply, ← Equiv.sum_comp (contrEquiv1 dot_S256x128_S128x128_S256x128_1_1_0_0_n_n 128 rfl rfl).symm]
  refine Finset.sum_congr rfl fun k _ => ?_
  have hk := contrEquiv1_symm_val dot_S256x128_S128x128_S256x128_1_1_0_0_n_n 128 rfl rfl k
  have el : dot_S256x128_S128x128_S256x128_1_1_0_0_n_n.lhsIdx (ix2 r c) ((contrEquiv1 dot_S256x128_S128x128_S256x128_1_1_0_0_n_n 128 rfl rfl).symm k) = ix2 r k := funext fun b => Fin.ext (by
    match b with
    | ⟨0, _⟩ => exact lhs_outl_non _ _
    | ⟨1, _⟩ => exact (lhs_outl_con _ _).trans hk)
  have er : dot_S256x128_S128x128_S256x128_1_1_0_0_n_n.rhsIdx (ix2 r c) ((contrEquiv1 dot_S256x128_S128x128_S256x128_1_1_0_0_n_n 128 rfl rfl).symm k) = ix2 c k := funext fun b => Fin.ext (by
    match b with
    | ⟨0, _⟩ => exact rhs_outl_non _ _
    | ⟨1, _⟩ => exact (rhs_outl_con _ _).trans hk)
  rw [el, er]

/-! ## Loads through rectangles, at an entry -/

theorem zero3 : (![0, 0, 0] : Fin 3 → Nat) = fun _ => 0 := by
  funext a; match a with | ⟨0, _⟩ => rfl | ⟨1, _⟩ => rfl | ⟨2, _⟩ => rfl
theorem zero1 : (![0] : Fin 1 → Nat) = fun _ => 0 := by
  funext a; match a with | ⟨0, _⟩ => rfl

/-- Relation q's weight matrix, loaded as a 1 x 128 x 64 slab of the stacked pair. -/
theorem ld_weight (W : Vec Ideal S2x128x64 .f32) (q : Fin 2) (off : Fin 3 → Nat) (hoff : off = ![q.val, 0, 0])
    (inb : ∀ a, off a + S1x128x64.size a ≤ S2x128x64.size a) (a : Fin 128) (j : Fin 64) :
    View.ld W (Rect.unit off S1x128x64.size inb) (ix3 (0 : Fin 1) a j) = W (ix3 q a j) := by
  subst hoff
  show W ((Rect.unit (s := S2x128x64) ![q.val, 0, 0] S1x128x64.size inb).idx (ix3 (0 : Fin 1) a j)) = _
  refine congrArg W (funext fun b => Fin.ext ?_)
  match b with
  | ⟨0, _⟩ => show q.val + 1 * 0 = q.val; omega
  | ⟨1, _⟩ => show 0 + 1 * a.val = a.val; omega
  | ⟨2, _⟩ => show 0 + 1 * j.val = j.val; omega

/-- Relation q's block of adjacency rows, loaded as a 1 x 256 x 4096 slab of the stacked pair of blocks. -/
theorem ld_adj (A : Vec Ideal S2x256x4096 .f32) (q : Fin 2) (off : Fin 3 → Nat) (hoff : off = ![q.val, 0, 0])
    (inb : ∀ a, off a + S1x256x4096.size a ≤ S2x256x4096.size a) (r : Fin 256) (n : Fin 4096) :
    View.ld A (Rect.unit off S1x256x4096.size inb) (ix3 (0 : Fin 1) r n) = A (ix3 q r n) := by
  subst hoff
  show A ((Rect.unit (s := S2x256x4096) ![q.val, 0, 0] S1x256x4096.size inb).idx (ix3 (0 : Fin 1) r n)) = _
  refine congrArg A (funext fun b => Fin.ext ?_)
  match b with
  | ⟨0, _⟩ => show q.val + 1 * 0 = q.val; omega
  | ⟨1, _⟩ => show 0 + 1 * r.val = r.val; omega
  | ⟨2, _⟩ => show 0 + 1 * n.val = n.val; omega

/-- A 64-column strip of the scratch starting at column o. -/
theorem ld_strip (S : Vec Ideal S4096x256 .f32) (o : Nat) (off : Fin 2 → Nat) (hoff : off = ![0, o])
    (inb : ∀ a, off a + S4096x64.size a ≤ S4096x256.size a) (n : Fin 4096) (j : Fin 64) (ho : o + j.val < 256) :
    View.ld S (Rect.unit off S4096x64.size inb) (ix2 n j) = S (ix2 n (⟨o + j.val, ho⟩ : Fin 256)) := by
  subst hoff
  show S ((Rect.unit (s := S4096x256) ![0, o] S4096x64.size inb).idx (ix2 n j)) = _
  refine congrArg S (funext fun b => Fin.ext ?_)
  match b with
  | ⟨0, _⟩ => show 0 + 1 * n.val = n.val; omega
  | ⟨1, _⟩ => show o + 1 * j.val = o + j.val; omega

/-! ## A strip's payload is a projection -/

/-- The payload of the first strip: node features times the loaded weight slab. -/
theorem pay_strip (X : Vec Ideal S4096x128 .f32) (W : Vec Ideal S1x128x64 .f32) (n : Fin 4096) (j : Fin 64) :
    k0_pay2 X W (ix2 n j) = ∑ a : Fin 128, X (ix2 n a) * W (ix3 (0 : Fin 1) a j) := by
  unfold k0_pay2
  rw [shapeCast_self, matmul_proj]
  refine Finset.sum_congr rfl fun a _ => ?_
  refine congrArg (X (ix2 n a) * ·) ?_
  refine (shapeCast_dropUnit_apply ![128, 64] W shapeCasts_S1x128x64_S128x64 (ix2 a j)).trans ?_
  exact congrArg W (funext fun b => by match b with | ⟨0, _⟩ => rfl | ⟨1, _⟩ => rfl | ⟨2, _⟩ => rfl)

/-- The four strips' payloads are one function of what they load. -/
theorem pay3_eq : @k0_pay3 = @k0_pay2 := rfl
theorem pay4_eq : @k0_pay4 = @k0_pay2 := rfl
theorem pay5_eq : @k0_pay5 = @k0_pay2 := rfl

/-- A strip's payload over the whole arrays: the projection by relation q's weights. -/
theorem pay_strip_proj (x0 : Vec Ideal S4096x128 .f32) (W : Vec Ideal S2x128x64 .f32) (q : Fin 2) (off : Fin 3 → Nat)
    (hoff : off = ![q.val, 0, 0]) (inb : ∀ a, off a + S1x128x64.size a ≤ S2x128x64.size a) (n : Fin 4096) (j : Fin 64) :
    k0_pay2 (View.ld x0 (Rect.unit ![0, 0] S4096x128.size inb_S4096x128_S4096x128_0_0))
        (View.ld W (Rect.unit off S1x128x64.size inb)) (ix2 n j) = proj x0 W q n j := by
  rw [pay_strip, View.ld_unit_zero zero2]
  unfold proj
  exact Finset.sum_congr rfl fun a _ => congrArg (x0 (ix2 n a) * ·) (ld_weight W q off hoff inb a j)

/-! ## The scratch after the first point, read strip by strip -/

/-- A column outside a strip's 64 columns is not under the strip. -/
theorem not_mem_strip (o' : Nat) (off : Fin 2 → Nat) (hoff : off = ![0, o'])
    (inb : ∀ a, off a + S4096x64.size a ≤ S4096x256.size a) (n : Fin 4096) (c : Fin 256) (h : c.val < o' ∨ o' + 64 ≤ c.val) :
    ix2 n c ∉ (Rect.unit (s := S4096x256) off S4096x64.size inb).set := by
  subst hoff
  intro hm
  have h1 := (Rect.mem_set_unit.mp hm) 1
  change o' ≤ c.val ∧ c.val < o' + 64 at h1
  omega

/-- Entry (n, j) of the strip at column o sits at (n, o + j) of the scratch. -/
theorem emb_strip (o : Nat) (off : Fin 2 → Nat) (hoff : off = ![0, o])
    (inb : ∀ a, off a + S4096x64.size a ≤ S4096x256.size a) (n : Fin 4096) (j : Fin 64) (ho : o + j.val < 256) :
    (Rect.unit (s := S4096x256) off S4096x64.size inb).emb (ix2 n j) = ix2 n (⟨o + j.val, ho⟩ : Fin 256) := by
  subst hoff
  refine funext fun b => Fin.ext ?_
  match b with
  | ⟨0, _⟩ => show 0 + 1 * n.val = n.val; omega
  | ⟨1, _⟩ => show o + 1 * j.val = o + j.val; omega

/-- A later store that does not reach an entry leaves what the earlier stores put there. -/
theorem canon_skip (r : Rect S4096x256) (w : r.shape.Idx → Elt Ideal .f32) (L : List (View.Piece (Elt Ideal) S4096x256 .f32))
    (y : S4096x256.Idx) (h : y ∉ r.set) :
    View.canon ((⟨r, w⟩ : View.Piece (Elt Ideal) S4096x256 .f32) :: L) y = View.canon L y :=
  View.canon_cons_of_not_mem _ L h

/-- Through the strip at column 192: the projection by the forward weights of relation 1. -/
theorem first_strip192 (x0 : Vec Ideal S4096x128 .f32) (x3 x5 : Vec Ideal S2x128x64 .f32) (n : Fin 4096) (j : Fin 64) :
    View.ld (firstScratch x0 x3 x5) (Rect.unit (s := S4096x256) ![0, 192] S4096x64.size inb_S4096x256_S4096x64_0_192) (ix2 n j) = proj x0 x3 1 n j := by
  have hj := j.isLt
  have ho : 192 + j.val < 256 := by omega
  rw [ld_strip _ 192 _ rfl _ n j ho]
  unfold firstScratch strips

  rw [← emb_strip 192 _ rfl inb_S4096x256_S4096x64_0_192 n j ho, View.canon_cons_emb]
  exact pay_strip_proj x0 x3 1 _ rfl _ n j

/-- Through the strip at column 128: the projection by the backward weights of relation 1. -/
theorem first_strip128 (x0 : Vec Ideal S4096x128 .f32) (x3 x5 : Vec Ideal S2x128x64 .f32) (n : Fin 4096) (j : Fin 64) :
    View.ld (firstScratch x0 x3 x5) (Rect.unit (s := S4096x256) ![0, 128] S4096x64.size inb_S4096x256_S4096x64_0_128) (ix2 n j) = proj x0 x5 1 n j := by
  have hj := j.isLt
  have ho : 128 + j.val < 256 := by omega
  rw [ld_strip _ 128 _ rfl _ n j ho]
  unfold firstScratch strips
  have m192 : ix2 n (⟨128 + j.val, ho⟩ : Fin 256) ∉ (Rect.unit (s := S4096x256) ![0, 192] S4096x64.size inb_S4096x256_S4096x64_0_192).set :=
    not_mem_strip 192 _ rfl inb_S4096x256_S4096x64_0_192 n ⟨128 + j.val, ho⟩ (by show 128 + j.val < 192 ∨ 192 + 64 ≤ 128 + j.val; omega)
  rw [canon_skip _ _ _ _ m192]
  rw [← emb_strip 128 _ rfl inb_S4096x256_S4096x64_0_128 n j ho, View.canon_cons_emb]
  exact pay_strip_proj x0 x5 1 _ rfl _ n j

/-- Through the strip at column 64: the projection by the forward weights of relation 0. -/
theorem first_strip64 (x0 : Vec Ideal S4096x128 .f32) (x3 x5 : Vec Ideal S2x128x64 .f32) (n : Fin 4096) (j : Fin 64) :
    View.ld (firstScratch x0 x3 x5) (Rect.unit (s := S4096x256) ![0, 64] S4096x64.size inb_S4096x256_S4096x64_0_64) (ix2 n j) = proj x0 x3 0 n j := by
  have hj := j.isLt
  have ho : 64 + j.val < 256 := by omega
  rw [ld_strip _ 64 _ rfl _ n j ho]
  unfold firstScratch strips
  have m192 : ix2 n (⟨64 + j.val, ho⟩ : Fin 256) ∉ (Rect.unit (s := S4096x256) ![0, 192] S4096x64.size inb_S4096x256_S4096x64_0_192).set :=
    not_mem_strip 192 _ rfl inb_S4096x256_S4096x64_0_192 n ⟨64 + j.val, ho⟩ (by show 64 + j.val < 192 ∨ 192 + 64 ≤ 64 + j.val; omega)
  rw [canon_skip _ _ _ _ m192]
  have m128 : ix2 n (⟨64 + j.val, ho⟩ : Fin 256) ∉ (Rect.unit (s := S4096x256) ![0, 128] S4096x64.size inb_S4096x256_S4096x64_0_128).set :=
    not_mem_strip 128 _ rfl inb_S4096x256_S4096x64_0_128 n ⟨64 + j.val, ho⟩ (by show 64 + j.val < 128 ∨ 128 + 64 ≤ 64 + j.val; omega)
  rw [canon_skip _ _ _ _ m128]
  rw [← emb_strip 64 _ rfl inb_S4096x256_S4096x64_0_64 n j ho, View.canon_cons_emb]
  exact pay_strip_proj x0 x3 0 _ rfl _ n j

/-- Through the strip at column 0: the projection by the backward weights of relation 0. -/
theorem first_strip0 (x0 : Vec Ideal S4096x128 .f32) (x3 x5 : Vec Ideal S2x128x64 .f32) (n : Fin 4096) (j : Fin 64) :
    View.ld (firstScratch x0 x3 x5) (Rect.unit (s := S4096x256) ![0, 0] S4096x64.size inb_S4096x256_S4096x64_0_0) (ix2 n j) = proj x0 x5 0 n j := by
  have hj := j.isLt
  have ho : 0 + j.val < 256 := by omega
  rw [ld_strip _ 0 _ rfl _ n j ho]
  unfold firstScratch strips
  have m192 : ix2 n (⟨0 + j.val, ho⟩ : Fin 256) ∉ (Rect.unit (s := S4096x256) ![0, 192] S4096x64.size inb_S4096x256_S4096x64_0_192).set :=
    not_mem_strip 192 _ rfl inb_S4096x256_S4096x64_0_192 n ⟨0 + j.val, ho⟩ (by show 0 + j.val < 192 ∨ 192 + 64 ≤ 0 + j.val; omega)
  rw [canon_skip _ _ _ _ m192]
  have m128 : ix2 n (⟨0 + j.val, ho⟩ : Fin 256) ∉ (Rect.unit (s := S4096x256) ![0, 128] S4096x64.size inb_S4096x256_S4096x64_0_128).set :=
    not_mem_strip 128 _ rfl inb_S4096x256_S4096x64_0_128 n ⟨0 + j.val, ho⟩ (by show 0 + j.val < 128 ∨ 128 + 64 ≤ 0 + j.val; omega)
  rw [canon_skip _ _ _ _ m128]
  have m64 : ix2 n (⟨0 + j.val, ho⟩ : Fin 256) ∉ (Rect.unit (s := S4096x256) ![0, 64] S4096x64.size inb_S4096x256_S4096x64_0_64).set :=
    not_mem_strip 64 _ rfl inb_S4096x256_S4096x64_0_64 n ⟨0 + j.val, ho⟩ (by show 0 + j.val < 64 ∨ 64 + 64 ≤ 0 + j.val; omega)
  rw [canon_skip _ _ _ _ m64]
  rw [← emb_strip 0 _ rfl inb_S4096x256_S4096x64_0_0 n j ho, View.canon_cons_emb]
  exact pay_strip_proj x0 x5 0 _ rfl _ n j

/-! ## A direction's half, the bias row, and the block's payload -/

/-- A 1 x 256 x 4096 slab viewed as a 256 x 4096 matrix. -/
theorem drop_adj (A : Vec Ideal S1x256x4096 .f32) (r : Fin 256) (n : Fin 4096) :
    shapeCast S256x4096 A shapeCasts_S1x256x4096_S256x4096 (ix2 r n) = A (ix3 (0 : Fin 1) r n) :=
  (shapeCast_dropUnit_apply ![256, 4096] A shapeCasts_S1x256x4096_S256x4096 (ix2 r n)).trans
    (congrArg A (funext fun b => by match b with | ⟨0, _⟩ => rfl | ⟨1, _⟩ => rfl | ⟨2, _⟩ => rfl))

/-- One direction's half of the block: the two relations' adjacency rows times their strips, added. -/
theorem pay_half (A0 : Vec Ideal S1x256x4096 .f32) (H0 : Vec Ideal S4096x64 .f32) (A1 : Vec Ideal S1x256x4096 .f32)
    (H1 : Vec Ideal S4096x64 .f32) (r : Fin 256) (j : Fin 64) :
    k0_pay7 A0 H0 A1 H1 (ix2 r j)
      = (∑ n : Fin 4096, A0 (ix3 (0 : Fin 1) r n) * H0 (ix2 n j)) + (∑ n : Fin 4096, A1 (ix3 (0 : Fin 1) r n) * H1 (ix2 n j)) := by
  unfold k0_pay7
  rw [addf_apply, matmul_agg, matmul_agg]
  exact congrArg₂ (· + ·) (Finset.sum_congr rfl fun n _ => congrArg (· * H0 (ix2 n j)) (drop_adj A0 r n))
    (Finset.sum_congr rfl fun n _ => congrArg (· * H1 (ix2 n j)) (drop_adj A1 r n))

/-- The forward half is the same function of what it loads. -/
theorem pay8_eq : @k0_pay8 = @k0_pay7 := rfl

/-- The sum over the two relations of a stacked pair of bias rows. -/
theorem sum_two_rows (B : Vec Ideal S2x64 .f32) (j : Fin 64) :
    multiReduction (F := Ideal) .add [0] S64 B 0x00000000#32 reduces_S2x64_S64 (.inl rfl) rfl (ix1 j) = B (ix2 0 j) + B (ix2 1 j) := by
  refine (Ideal.multiReduction_add_single B 0x00000000#32 reduces_S2x64_S64 (.inl rfl) rfl (ix1 j)).trans ?_
  show ∑ i : Fin 2, B (reduces_S2x64_S64.lift (ix1 j) i) = _
  rw [Fin.sum_univ_two]
  congr 1 <;> exact congrArg B (funext fun b => Fin.ext (by match b with | ⟨0, _⟩ => rfl | ⟨1, _⟩ => rfl))

/-- The bias row in a backward column. -/
theorem pay_bias_lt (Bb Bf : Vec Ideal S2x64 .f32) (k : Fin 128) (j : Fin 64) (h : k.val = j.val) :
    k0_pay6 Bb Bf (ix1 k) = Bb (ix2 0 j) + Bb (ix2 1 j) := by
  unfold k0_pay6
  refine (concatenate_pair_apply_left (t := S128) (s₁ := S64) (s₂ := S64) (0 : Fin S128.rank) _ _ concatenates_S64_S64_S128_d0
    (ix1 k) rfl (ix1 j) (fun b => by match b with | ⟨0, _⟩ => exact h.symm)).trans ?_
  exact sum_two_rows Bb j

/-- The bias row in a forward column. -/
theorem pay_bias_ge (Bb Bf : Vec Ideal S2x64 .f32) (k : Fin 128) (j : Fin 64) (h : k.val = 64 + j.val) :
    k0_pay6 Bb Bf (ix1 k) = Bf (ix2 0 j) + Bf (ix2 1 j) := by
  unfold k0_pay6
  refine (concatenate_pair_apply_right (t := S128) (s₁ := S64) (s₂ := S64) (0 : Fin S128.rank) _ _ concatenates_S64_S64_S128_d0
    (ix1 k) rfl rfl (ix1 j) (fun b hb => absurd (Subsingleton.elim _ _) hb) (by show j.val + 64 = k.val; omega)).trans ?_
  exact sum_two_rows Bf j

/-- A 128-vector laid along the rows of a 256 x 128 block. -/
theorem bcast_row (v : FVec Ideal S128 .f32) (r : Fin 256) (c : Fin 128) :
    broadcastTo S256x128 (shapeCast S1x128 v shapeCasts_S128_S1x128) broadcasts_S1x128_S256x128 (ix2 r c) = v (ix1 c) := by
  refine (broadcastTo_apply _ broadcasts_S1x128_S256x128 (ix2 r c) (ix2 (0 : Fin 1) c) (fun a => by
    match a with
    | ⟨0, _⟩ => show 0 = if (1 : Nat) = 1 then 0 else r.val; rw [if_pos rfl]
    | ⟨1, _⟩ => show c.val = if (128 : Nat) = 1 then 0 else c.val; rw [if_neg (by decide)])).trans ?_
  refine (shapeCast_addUnit_apply ![128] v shapeCasts_S128_S1x128 (ix2 (0 : Fin 1) c)).trans ?_
  exact congrArg v (funext fun b => by match b with | ⟨0, _⟩ => rfl)

/-- The block's payload at an entry: the two halves side by side plus the bias row, rectified, through the output
    matrix, plus the output bias, plus the residual rows. -/
theorem pay_block (v7 : FVec Ideal S128 .f32) (L R : FVec Ideal S256x64 .f32) (W : Vec Ideal S128x128 .f32)
    (B : Vec Ideal S128 .f32) (Xr : Vec Ideal S256x128 .f32) (r : Fin 256) (c : Fin 128) :
    k0_pay1 v7 L R W B Xr (ix2 r c)
      = (∑ k : Fin 128, max (concatenate S256x128 1 [⟨S256x64, L⟩, ⟨S256x64, R⟩] concatenates_S256x64_S256x64_S256x128_d1 (ix2 r k)
            + v7 (ix1 k)) 0 * W (ix2 c k) + B (ix1 c)) + Xr (ix2 r c) := by
  unfold k0_pay1
  rw [addf_apply, addf_apply, matmul_outl, bcast_row]
  refine congrArg (· + Xr (ix2 r c)) (congrArg (· + B (ix1 c)) (Finset.sum_congr rfl fun k _ => ?_))
  rw [maximumf_apply, addf_apply, bcast_row, broadcast_apply]
  show max _ (Ideal.ofBits .f32 0x00000000#32) * _ = _
  rw [Ideal.ofBits_zero_f32]

/-! ## The block a grid point writes, at an entry -/

/-- The forward half at an entry. -/
theorem pay_half_fw (A0 : Vec Ideal S1x256x4096 .f32) (H0 : Vec Ideal S4096x64 .f32) (A1 : Vec Ideal S1x256x4096 .f32)
    (H1 : Vec Ideal S4096x64 .f32) (r : Fin 256) (j : Fin 64) :
    k0_pay8 A0 H0 A1 H1 (ix2 r j)
      = (∑ n : Fin 4096, A0 (ix3 (0 : Fin 1) r n) * H0 (ix2 n j)) + (∑ n : Fin 4096, A1 (ix3 (0 : Fin 1) r n) * H1 (ix2 n j)) :=
  pay_half A0 H0 A1 H1 r j

/-- The block's own rows of the node features: grid point T loads rows 256 T .. 256 T + 255. -/
theorem ld_rows (x0 : Vec Ideal S4096x128 .f32) (i : grid0.Coords) (T : Nat) (hi : (i 0).val = T) (r : Fin 256) (c : Fin 128)
    (hR : 256 * T + r.val < 4096) :
    View.ld x0 (Rect.unit (k0_off1 i) S256x128.size (k0_off1_inb i)) (ix2 r c) = x0 (ix2 (⟨256 * T + r.val, hR⟩ : Fin 4096) c) := by
  have e0 : k0_off1 i 0 = 256 * (i 0).val := congrFun (k0_off1_eq i) 0
  have e1 : k0_off1 i 1 = 0 := congrFun (k0_off1_eq i) 1
  show x0 ((Rect.unit (s := S4096x128) (k0_off1 i) S256x128.size (k0_off1_inb i)).idx (ix2 r c)) = _
  refine congrArg x0 (funext fun b => Fin.ext ?_)
  match b with
  | ⟨0, _⟩ => show k0_off1 i 0 + 1 * r.val = 256 * T + r.val; omega
  | ⟨1, _⟩ => show k0_off1 i 1 + 1 * c.val = c.val; omega

/-- THE BLOCK AT AN ENTRY. Grid point T finds the node features whole (x0), rows 256 T .. 256 T + 255 of both
    relations' forward and backward adjacency matrices (x1, x2), the biases, the output layer, and a scratch S whose
    four strips are the four projections. What it writes at (r, c) is the specified result at row 256 T + r. -/
theorem block_at (i : grid0.Coords) (T : Nat) (hi : (i 0).val = T) (hT : T < 16)
    (x0 : Vec Ideal S4096x128 .f32) (x1 x2 : Vec Ideal S2x256x4096 .f32) (x4 x6 : Vec Ideal S2x64 .f32)
    (x7 : Vec Ideal S128x128 .f32) (x8 : Vec Ideal S128 .f32) (S : Vec Ideal S4096x256 .f32)
    (FW BW : SAdj.Idx → EReal) (WFW WBW : SProj.Idx → EReal)
    (h1 : ∀ (q : Fin 2) (r : Fin 256) (n : Fin 4096) (hR : 256 * T + r.val < 4096),
      x1 (ix3 q r n) = FW (ix3 q (⟨256 * T + r.val, hR⟩ : Fin 4096) n))
    (h2 : ∀ (q : Fin 2) (r : Fin 256) (n : Fin 4096) (hR : 256 * T + r.val < 4096),
      x2 (ix3 q r n) = BW (ix3 q (⟨256 * T + r.val, hR⟩ : Fin 4096) n))
    (hS0 : ∀ (n : Fin 4096) (j : Fin 64), View.ld S (Rect.unit (s := S4096x256) ![0, 0] S4096x64.size inb_S4096x256_S4096x64_0_0) (ix2 n j) = proj x0 WBW 0 n j)
    (hS64 : ∀ (n : Fin 4096) (j : Fin 64), View.ld S (Rect.unit (s := S4096x256) ![0, 64] S4096x64.size inb_S4096x256_S4096x64_0_64) (ix2 n j) = proj x0 WFW 0 n j)
    (hS128 : ∀ (n : Fin 4096) (j : Fin 64), View.ld S (Rect.unit (s := S4096x256) ![0, 128] S4096x64.size inb_S4096x256_S4096x64_0_128) (ix2 n j) = proj x0 WBW 1 n j)
    (hS192 : ∀ (n : Fin 4096) (j : Fin 64), View.ld S (Rect.unit (s := S4096x256) ![0, 192] S4096x64.size inb_S4096x256_S4096x64_0_192) (ix2 n j) = proj x0 WFW 1 n j)
    (r : Fin 256) (c : Fin 128) (hR : 256 * T + r.val < 4096) :
    block i x0 x1 x2 x4 x6 x7 x8 S (ix2 r c)
      = outAt x0 FW BW WFW x4 WBW x6 x7 x8 (⟨256 * T + r.val, hR⟩ : Fin 4096) c := by
  unfold block
  rw [View.ld_unit_zero (S := S2x64) zero2 _ x6, View.ld_unit_zero (S := S2x64) zero2 _ x4,
    View.ld_unit_zero (S := S128x128) zero2 _ x7, View.ld_unit_zero (S := S128) zero1 _ x8]
  rw [pay_block]
  unfold outAt
  rw [ld_rows x0 i T hi r c hR]
  refine congrArg (· + x0 (ix2 (⟨256 * T + r.val, hR⟩ : Fin 4096) c)) (congrArg (· + x8 (ix1 c)) (Finset.sum_congr rfl fun k _ => ?_))
  refine congrArg (fun z => max z 0 * x7 (ix2 c k)) ?_
  by_cases hk : k.val < 64
  · -- a backward column
    rw [pre_lt x0 FW BW WFW x4 WBW x6 _ k ⟨k.val, hk⟩ rfl, pay_bias_lt x6 x4 k ⟨k.val, hk⟩ rfl]
    unfold half
    refine congrArg (· + (x6 (ix2 0 (⟨k.val, hk⟩ : Fin 64)) + x6 (ix2 1 (⟨k.val, hk⟩ : Fin 64)))) ?_
    refine (concatenate_pair_apply_left (t := S256x128) (s₁ := S256x64) (s₂ := S256x64) (1 : Fin S256x128.rank) _ _
      concatenates_S256x64_S256x64_S256x128_d1 (ix2 r k) rfl (ix2 r (⟨k.val, hk⟩ : Fin 64))
      (fun b => by match b with | ⟨0, _⟩ => rfl | ⟨1, _⟩ => rfl)).trans ?_
    rw [pay_half]
    unfold agg
    refine congrArg₂ (· + ·) (Finset.sum_congr rfl fun n _ => ?_) (Finset.sum_congr rfl fun n _ => ?_)
    · exact congrArg₂ (· * ·) ((ld_adj x2 0 _ rfl _ r n).trans (h2 0 r n hR)) (hS0 n ⟨k.val, hk⟩)
    · exact congrArg₂ (· * ·) ((ld_adj x2 1 _ rfl _ r n).trans (h2 1 r n hR)) (hS128 n ⟨k.val, hk⟩)
  · -- a forward column
    have hk2 : k.val - 64 < 64 := by have := k.isLt; omega
    have hkj : k.val = 64 + (⟨k.val - 64, hk2⟩ : Fin 64).val := by show k.val = 64 + (k.val - 64); omega
    rw [pre_ge x0 FW BW WFW x4 WBW x6 _ k ⟨k.val - 64, hk2⟩ hkj, pay_bias_ge x6 x4 k ⟨k.val - 64, hk2⟩ hkj]
    unfold half
    refine congrArg (· + (x4 (ix2 0 (⟨k.val - 64, hk2⟩ : Fin 64)) + x4 (ix2 1 (⟨k.val - 64, hk2⟩ : Fin 64)))) ?_
    refine (concatenate_pair_apply_right (t := S256x128) (s₁ := S256x64) (s₂ := S256x64) (1 : Fin S256x128.rank) _ _
      concatenates_S256x64_S256x64_S256x128_d1 (ix2 r k) rfl rfl (ix2 r (⟨k.val - 64, hk2⟩ : Fin 64))
      (fun b hb => by match b with | ⟨0, _⟩ => rfl | ⟨1, _⟩ => exact absurd rfl hb)
      (by show (k.val - 64) + 64 = k.val; omega)).trans ?_
    rw [pay_half_fw]
    unfold agg
    refine congrArg₂ (· + ·) (Finset.sum_congr rfl fun n _ => ?_) (Finset.sum_congr rfl fun n _ => ?_)
    · exact congrArg₂ (· * ·) ((ld_adj x1 0 _ rfl _ r n).trans (h1 0 r n hR)) (hS64 n ⟨k.val - 64, hk2⟩)
    · exact congrArg₂ (· * ·) ((ld_adj x1 1 _ rfl _ r n).trans (h1 1 r n hR)) (hS192 n ⟨k.val - 64, hk2⟩)

end Cert.BiGcn.KernelAt

end
-- ==== Proof.Blocks.lean ====
/-
  From what each grid point writes to the whole result array.

  The grid has 16 points; point t sees the node features, the weights, the biases and the output layer whole, and
  rows 256 t .. 256 t + 255 of the four adjacency matrices, and writes rows 256 t .. 256 t + 255 of the result.
  The scratch holding the four projections is filled by point 0 and only read afterwards, so by induction on the
  point it holds the same four projections after every point. Hence every point writes the block of ONE function of
  the argument arrays, the specified result; the 16 blocks tile the result array (row i lies in block i / 256), so the
  array ends holding that function.
-/
import proofs.«176645_g10471130268014_cont_sun_c4_278_25_alg».proof.Proof.Gen.KernelIdeal.Value
import proofs.«176645_g10471130268014_cont_sun_c4_278_25_alg».proof.Proof.Pieces
import proofs.«176645_g10471130268014_cont_sun_c4_278_25_alg».proof.Proof.KernelAt
import proofs.«176645_g10471130268014_cont_sun_c4_278_25_alg».proof.Proof.Spec
import Idealize.ShloMosaic.Lib.Pipeline.Value

set_option maxRecDepth 16384

noncomputable section

namespace Cert.BiGcn.Blocks

open Cert.KernelIdeal Cert.KernelIdeal.Gen Cert.BiGcn Cert.BiGcn.Pieces Cert.BiGcn.KernelAt
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays and the blocks a point finds, at their literal types -/
abbrev arr0 (c : Dev nD) : Vec Ideal S4096x128 .f32 := V m c main_arg0
abbrev arr1 (c : Dev nD) : Vec Ideal S2x4096x4096 .f32 := V m c main_arg1
abbrev arr2 (c : Dev nD) : Vec Ideal S2x4096x4096 .f32 := V m c main_arg2
abbrev arr3 (c : Dev nD) : Vec Ideal S2x128x64 .f32 := V m c main_arg3
abbrev arr4 (c : Dev nD) : Vec Ideal S2x64 .f32 := V m c main_arg4
abbrev arr5 (c : Dev nD) : Vec Ideal S2x128x64 .f32 := V m c main_arg5
abbrev arr6 (c : Dev nD) : Vec Ideal S2x64 .f32 := V m c main_arg6
abbrev arr7 (c : Dev nD) : Vec Ideal S128x128 .f32 := V m c main_arg7
abbrev arr8 (c : Dev nD) : Vec Ideal S128 .f32 := V m c main_arg8
abbrev blk0 (c : Dev nD) (t : Fin cfg0.N) : Vec Ideal S4096x128 .f32 := iblk m c 0 t
abbrev blk1 (c : Dev nD) (t : Fin cfg0.N) : Vec Ideal S2x256x4096 .f32 := iblk m c 1 t
abbrev blk2 (c : Dev nD) (t : Fin cfg0.N) : Vec Ideal S2x256x4096 .f32 := iblk m c 2 t
abbrev blk3 (c : Dev nD) (t : Fin cfg0.N) : Vec Ideal S2x128x64 .f32 := iblk m c 3 t
abbrev blk4 (c : Dev nD) (t : Fin cfg0.N) : Vec Ideal S2x64 .f32 := iblk m c 4 t
abbrev blk5 (c : Dev nD) (t : Fin cfg0.N) : Vec Ideal S2x128x64 .f32 := iblk m c 5 t
abbrev blk6 (c : Dev nD) (t : Fin cfg0.N) : Vec Ideal S2x64 .f32 := iblk m c 6 t
abbrev blk7 (c : Dev nD) (t : Fin cfg0.N) : Vec Ideal S128x128 .f32 := iblk m c 7 t
abbrev blk8 (c : Dev nD) (t : Fin cfg0.N) : Vec Ideal S128 .f32 := iblk m c 8 t

/-! ## What the blocks read: the printed index maps, decided over the 16 points -/

theorem idx0 : ∀ t : Fin cfg0.N, win0_0.index t (0 : Fin 2) = 0 ∧ win0_0.index t (1 : Fin 2) = 0 :=
  (by decide +kernel : ∀ t : Fin grid0.N, _)
/-- Window 0's block is its whole array at every point. -/
theorem blk0_eq (c : Dev nD) (t : Fin cfg0.N) : blk0 m c t = arr0 m c := by
  obtain ⟨e0, e1⟩ := idx0 t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 4096 + 1 * (y 0).val = (y 0).val; omega
  | ⟨1, _⟩ => show win0_0.index t (1 : Fin 2) * 128 + 1 * (y 1).val = (y 1).val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
/-- Window 1's block at point t is rows 256 t .. 256 t + 255 of both relations' adjacency matrices. -/
theorem blk1_at (c : Dev nD) (t : Fin cfg0.N) (q : Fin 2) (r : Fin 256) (n : Fin 4096) (hR : 256 * t.val + r.val < 4096) :
    blk1 m c t (ix3 q r n) = arr1 m c (ix3 q (⟨256 * t.val + r.val, hR⟩ : Fin 4096) n) := by
  obtain ⟨e0, e1, e2⟩ := idx1 t
  show V m c main_arg1 (((cfg0.win 1).blk t).view.emb (ix3 q r n)) = V m c main_arg1 (ix3 q (⟨256 * t.val + r.val, hR⟩ : Fin 4096) n)
  refine congrArg (V m c main_arg1) (funext fun a => Fin.ext ?_)
  match a with
  | ⟨0, _⟩ => show win0_1.index t (0 : Fin 3) * 2 + 1 * q.val = q.val; omega
  | ⟨1, _⟩ => show win0_1.index t (1 : Fin 3) * 256 + 1 * r.val = 256 * t.val + r.val; omega
  | ⟨2, _⟩ => show win0_1.index t (2 : Fin 3) * 4096 + 1 * n.val = n.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
/-- Window 2's block at point t is rows 256 t .. 256 t + 255 of both relations' adjacency matrices. -/
theorem blk2_at (c : Dev nD) (t : Fin cfg0.N) (q : Fin 2) (r : Fin 256) (n : Fin 4096) (hR : 256 * t.val + r.val < 4096) :
    blk2 m c t (ix3 q r n) = arr2 m c (ix3 q (⟨256 * t.val + r.val, hR⟩ : Fin 4096) n) := by
  obtain ⟨e0, e1, e2⟩ := idx2 t
  show V m c main_arg2 (((cfg0.win 2).blk t).view.emb (ix3 q r n)) = V m c main_arg2 (ix3 q (⟨256 * t.val + r.val, hR⟩ : Fin 4096) n)
  refine congrArg (V m c main_arg2) (funext fun a => Fin.ext ?_)
  match a with
  | ⟨0, _⟩ => show win0_2.index t (0 : Fin 3) * 2 + 1 * q.val = q.val; omega
  | ⟨1, _⟩ => show win0_2.index t (1 : Fin 3) * 256 + 1 * r.val = 256 * t.val + r.val; omega
  | ⟨2, _⟩ => show win0_2.index t (2 : Fin 3) * 4096 + 1 * n.val = n.val; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
/-- Window 3's block is its whole array at every point. -/
theorem blk3_eq (c : Dev nD) (t : Fin cfg0.N) : blk3 m c t = arr3 m c := by
  obtain ⟨e0, e1, e2⟩ := idx3 t
  funext y
  show V m c main_arg3 (((cfg0.win 3).blk t).view.emb y) = V m c main_arg3 y
  refine congrArg (V m c main_arg3) (funext fun a => Fin.ext ?_)
  match a with
  | ⟨0, _⟩ => show win0_3.index t (0 : Fin 3) * 2 + 1 * (y 0).val = (y 0).val; omega
  | ⟨1, _⟩ => show win0_3.index t (1 : Fin 3) * 128 + 1 * (y 1).val = (y 1).val; omega
  | ⟨2, _⟩ => show win0_3.index t (2 : Fin 3) * 64 + 1 * (y 2).val = (y 2).val; omega

theorem idx4 : ∀ t : Fin cfg0.N, win0_4.index t (0 : Fin 2) = 0 ∧ win0_4.index t (1 : Fin 2) = 0 :=
  (by decide +kernel : ∀ t : Fin grid0.N, _)
/-- Window 4's block is its whole array at every point. -/
theorem blk4_eq (c : Dev nD) (t : Fin cfg0.N) : blk4 m c t = arr4 m c := by
  obtain ⟨e0, e1⟩ := idx4 t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 2 + 1 * (y 0).val = (y 0).val; omega
  | ⟨1, _⟩ => show win0_4.index t (1 : Fin 2) * 64 + 1 * (y 1).val = (y 1).val; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
/-- Window 5's block is its whole array at every point. -/
theorem blk5_eq (c : Dev nD) (t : Fin cfg0.N) : blk5 m c t = arr5 m c := by
  obtain ⟨e0, e1, e2⟩ := idx5 t
  funext y
  show V m c main_arg5 (((cfg0.win 5).blk t).view.emb y) = V m c main_arg5 y
  refine congrArg (V m c main_arg5) (funext fun a => Fin.ext ?_)
  match a with
  | ⟨0, _⟩ => show win0_5.index t (0 : Fin 3) * 2 + 1 * (y 0).val = (y 0).val; omega
  | ⟨1, _⟩ => show win0_5.index t (1 : Fin 3) * 128 + 1 * (y 1).val = (y 1).val; omega
  | ⟨2, _⟩ => show win0_5.index t (2 : Fin 3) * 64 + 1 * (y 2).val = (y 2).val; omega

theorem idx6 : ∀ t : Fin cfg0.N, win0_6.index t (0 : Fin 2) = 0 ∧ win0_6.index t (1 : Fin 2) = 0 :=
  (by decide +kernel : ∀ t : Fin grid0.N, _)
/-- Window 6's block is its whole array at every point. -/
theorem blk6_eq (c : Dev nD) (t : Fin cfg0.N) : blk6 m c t = arr6 m c := by
  obtain ⟨e0, e1⟩ := idx6 t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 2 + 1 * (y 0).val = (y 0).val; omega
  | ⟨1, _⟩ => show win0_6.index t (1 : Fin 2) * 64 + 1 * (y 1).val = (y 1).val; omega

theorem idx7 : ∀ t : Fin cfg0.N, win0_7.index t (0 : Fin 2) = 0 ∧ win0_7.index t (1 : Fin 2) = 0 :=
  (by decide +kernel : ∀ t : Fin grid0.N, _)
/-- Window 7's block is its whole array at every point. -/
theorem blk7_eq (c : Dev nD) (t : Fin cfg0.N) : blk7 m c t = arr7 m c := by
  obtain ⟨e0, e1⟩ := idx7 t
  funext y
  show V m c main_arg7 (((cfg0.win 7).blk t).view.emb y) = V m c main_arg7 y
  refine congrArg (V m c main_arg7) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem idx8 : ∀ t : Fin cfg0.N, win0_8.index t (0 : Fin 1) = 0 :=
  (by decide +kernel : ∀ t : Fin grid0.N, _)
/-- Window 8's block is its whole array at every point. -/
theorem blk8_eq (c : Dev nD) (t : Fin cfg0.N) : blk8 m c t = arr8 m c := by
  have e0 := idx8 t
  funext y
  show V m c main_arg8 (((cfg0.win 8).blk t).view.emb y) = V m c main_arg8 y
  refine congrArg (V m c main_arg8) (funext fun a => Fin.ext ?_)
  match a with
  | ⟨0, _⟩ => show win0_8.index t (0 : Fin 1) * 128 + 1 * (y 0).val = (y 0).val; omega

theorem idx9 : ∀ t : Fin cfg0.N, win0_9.index t (0 : Fin 2) = t.val ∧ win0_9.index t (1 : Fin 2) = 0 ∧ (grid0.coords t 0).val = t.val :=
  (by decide +kernel : ∀ t : Fin grid0.N, _)

/-! ## The scratch holds the four projections after every point -/

/-- The four projections side by side. -/
abbrev scratch (c : Dev nD) : Vec Ideal S4096x256 .f32 := firstScratch (arr0 m c) (arr3 m c) (arr5 m c)

theorem scratch_inv (c : Dev nD) : ∀ (n : ℕ) (hn : n < cfg0.N), (outsAt0 m c n hn).2 = scratch m c
  | 0, hn => by
    rw [outsAt0_A m c ⟨0, hn⟩ rfl]
    dsimp only
    rw [scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) ((hcond0_0 ⟨0, hn⟩).mpr rfl)]
    show firstScratch (blk0 m c ⟨0, hn⟩) (blk3 m c ⟨0, hn⟩) (blk5 m c ⟨0, hn⟩) = _
    rw [blk0_eq, blk3_eq, blk5_eq]
  | n + 1, hn => by
    have hN : cfg0.N = 16 := N_0
    have hB : ¬(⟨n + 1, hn⟩ : Fin cfg0.N).val % 16 = 0 := by dsimp only; omega
    rw [outsAt0_B m c ⟨n + 1, hn⟩ hB]
    dsimp only
    show (outsAt0 m c n _).2 = _
    exact scratch_inv c n _

/-! ## Every point writes its block of the specified result -/

/-- The specified result, of the argument arrays as launched. -/
abbrev result (c : Dev nD) : Vec Ideal S4096x128 .f32 :=
  out (arr0 m c) (arr1 m c) (arr2 m c) (arr3 m c) (arr4 m c) (arr5 m c) (arr6 m c) (arr7 m c) (arr8 m c)

/-- What the output's staging buffer holds after point t: the block written from the point's blocks and the scratch. -/
theorem written (c : Dev nD) (t : Fin cfg0.N) :
    (outsAt0 m c t.val t.isLt).1
      = block (grid0.coords t) (arr0 m c) (blk1 m c t) (blk2 m c t) (arr4 m c) (arr6 m c) (arr7 m c) (arr8 m c) (scratch m c) := by
  by_cases h0 : t.val % 16 = 0
  · rw [outsAt0_A m c t h0]
    dsimp only
    rw [block_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)]
    show block (grid0.coords t) (blk0 m c t) (blk1 m c t) (blk2 m c t) (blk4 m c t) (blk6 m c t) (blk7 m c t) (blk8 m c t)
      (firstScratch (blk0 m c t) (blk3 m c t) (blk5 m c t)) = _
    rw [blk0_eq, blk3_eq, blk4_eq, blk5_eq, blk6_eq, blk7_eq, blk8_eq]
  · rw [outsAt0_B m c t h0]
    dsimp only
    rw [block_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h))]
    show block (grid0.coords t) (blk0 m c t) (blk1 m c t) (blk2 m c t) (blk4 m c t) (blk6 m c t) (blk7 m c t) (blk8 m c t)
      (outsAt0 m c (t.val - 1) _).2 = _
    rw [scratch_inv, blk0_eq, blk4_eq, blk6_eq, blk7_eq, blk8_eq]

/-- That block, at an entry, is the specified result at row 256 t + (the entry's row). -/
theorem block_eq (c : Dev nD) (t : Fin cfg0.N) (y : S256x128.Idx) (hR : 256 * t.val + (y 0).val < 4096) :
    block (grid0.coords t) (arr0 m c) (blk1 m c t) (blk2 m c t) (arr4 m c) (arr6 m c) (arr7 m c) (arr8 m c) (scratch m c) y
      = result m c (ix2 (⟨256 * t.val + (y 0).val, hR⟩ : Fin 4096) (y 1)) := by
  obtain ⟨r, c', rfl⟩ : ∃ (r : Fin 256) (c' : Fin 128), y = ix2 r c' := ⟨y 0, y 1, eq_ix2 y⟩
  have hN : cfg0.N = 16 := N_0
  have ht := t.isLt
  exact block_at (grid0.coords t) t.val (idx9 t).2.2 (by omega) (arr0 m c) (blk1 m c t) (blk2 m c t) (arr4 m c) (arr6 m c)
    (arr7 m c) (arr8 m c) (scratch m c) (arr1 m c) (arr2 m c) (arr3 m c) (arr5 m c)
    (fun q r n hR => blk1_at m c t q r n hR) (fun q r n hR => blk2_at m c t q r n hR)
    (first_strip0 (arr0 m c) (arr3 m c) (arr5 m c)) (first_strip64 (arr0 m c) (arr3 m c) (arr5 m c))
    (first_strip128 (arr0 m c) (arr3 m c) (arr5 m c)) (first_strip192 (arr0 m c) (arr3 m c) (arr5 m c)) r c' hR

/-- WHAT POINT t WRITES BACK is block t of the specified result. -/
theorem flushed_eq (c : Dev nD) (t : Fin cfg0.N) :
    (dats m 0 c).flushed 9 t = ((cfg0.win 9).blk t).view.read (Elt Ideal) (result m c) := by
  rw [Cert.KernelIdeal.Value.flushed9, written]
  obtain ⟨e0, e1, _⟩ := idx9 t
  have hN : cfg0.N = 16 := N_0
  have ht := t.isLt
  funext y
  have hy0 : (y 0).val < 256 := (y 0).isLt
  have hR : 256 * t.val + (y 0).val < 4096 := by omega
  show block (grid0.coords t) (arr0 m c) (blk1 m c t) (blk2 m c t) (arr4 m c) (arr6 m c) (arr7 m c) (arr8 m c) (scratch m c)
      ((cfg0.win 9).xinj (grid0.coords t) y) = result m c (((cfg0.win 9).blk t).view.emb y)
  rw [block_eq m c t _ hR]
  refine congrArg (result m c) (funext fun a => Fin.ext ?_)
  match a with
  | ⟨0, _⟩ => show 256 * t.val + (y 0).val = win0_9.index t (0 : Fin 2) * 256 + 1 * (y 0).val; omega
  | ⟨1, _⟩ => show (y 1).val = win0_9.index t (1 : Fin 2) * 128 + 1 * (y 1).val; omega

/-! ## The blocks tile the result array -/

/-- An entry of the array is in point t's block iff each coordinate is in the block's range on its axis. -/
theorem mem_blk9 (t : Fin cfg0.N) (i : S4096x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v0).slice (win0_9.rect t)).set ↔ _
  rw [View.set_slice_whole, Rect.mem_set_unit]
  exact Iff.rfl

/-- THE RESULT ARRAY after the run is the specified result: row i of it lies in the block of point i / 256. -/
theorem final (c : Dev nD) : (dats m 0 c).arrAt 9 cfg0.N = result m c :=
  (dats m 0 c).arrAt_eq_of_cover 9 (result m c) (fun t _ => flushed_eq m c t) fun i => by
    have h0 : (i 0).val < 4096 := (i 0).isLt
    have h1 : (i 1).val < 128 := (i 1).isLt
    have hN : cfg0.N = 16 := N_0
    have hq : (i 0).val / 256 < cfg0.N := by omega
    obtain ⟨e0, e1, _⟩ := idx9 ⟨(i 0).val / 256, hq⟩
    refine ⟨⟨(i 0).val / 256, hq⟩, flush0_9 _, ?_⟩
    rw [mem_blk9]
    intro a
    match a with
    | ⟨0, _⟩ =>
      show win0_9.index ⟨(i 0).val / 256, hq⟩ (0 : Fin 2) * 256 ≤ (i 0).val ∧ (i 0).val < win0_9.index ⟨(i 0).val / 256, hq⟩ (0 : Fin 2) * 256 + 256
      rw [e0]; dsimp only; omega
    | ⟨1, _⟩ =>
      show win0_9.index ⟨(i 0).val / 256, hq⟩ (1 : Fin 2) * 128 ≤ (i 1).val ∧ (i 1).val < win0_9.index ⟨(i 0).val / 256, hq⟩ (1 : Fin 2) * 128 + 128
      rw [e1]; omega

/-! ## The run, read -/

/-- Every weakly fair execution of the idealized kernel terminates with the result array at the specified result of
    the argument arrays as launched, and the argument arrays unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.BiGcn.Blocks

end
-- ==== Proof.RefValue.lean ====
/-
  The reference's result, read one operation at a time, is the value stated once over the extended reals.

  The reference forms, for each of the two relations i, the projection x . W i (a sum over the 128 input features),
  the aggregate A i . (x . W i) (a sum over the 4096 nodes) and adds the bias row b i; it does so once with the
  backward adjacencies and weights and once with the forward ones, lays the backward result in columns 0..63 and the
  forward result in columns 64..127, and adds the two relations' rows to a zero array, relation 0 first. It then
  rectifies, multiplies by the transpose of the output layer's matrix, adds the output bias and the node features.

  Each stage is read at an index with explicit coordinates. The slice and the reshape that pick relation i out of a
  stacked array read the stacked array at (i, ., .): the reshape sends (a, j) to the row-major position a * C + j of
  a 1 x R x C array, which splits back into (0, a, j) because j < C. A joined array reads its first piece in a column
  below 64 and its second piece, 64 columns to the left, otherwise. What is left is the regrouping
      (0 + (A0 + b0)) + (A1 + b1) = (A0 + A1) + (b0 + b1)
  of four extended reals: commutativity and associativity of addition with 0 as unit.
-/
import proofs.«176645_g10471130268014_cont_sun_c4_278_25_alg».proof.Proof.Gen.ReferenceIdeal.Read
import proofs.«176645_g10471130268014_cont_sun_c4_278_25_alg».proof.Proof.Spec
import Idealize.ShloMosaic.Lib.Pipeline.Value
import Idealize.ShloMosaic.Lib.ValueIdx
import Idealize.ShloMosaic.PureOps.Ideal.Laws

noncomputable section

namespace Cert.BiGcn.Ref

open Cert.ReferenceIdeal Cert.ReferenceIdeal.Gen Cert.ReferenceIdeal.Read
open Idealize.ShloMosaic Idealize.ShloMosaic.ValueIdx
open scoped BigOperators

/-! ### Relation 0, forward direction: x1, x3, x4 -/

/-- The projection of the node features by the forward weights of relation 0, at node n and feature j: the
    contraction runs over the input feature a, and the weights are read at (0, a, j). -/
theorem proj_fw0 (x0 : (⟨S4096x128, .f32⟩ : BufTy).Contents (Elt Ideal)) (x3 : (⟨S2x128x64, .f32⟩ : BufTy).Contents (Elt Ideal))
    (n : Fin 4096) (j : Fin 64) :
    val_main_v5 (F := Ideal) x0 x3 (ix2 n j) = Cert.BiGcn.proj x0 x3 0 n j := by
  rw [val_main_v5_apply]
  unfold Cert.BiGcn.proj
  refine Finset.sum_congr rfl fun a _ => ?_
  rw [val_main_v4_apply, val_main_v3_apply]
  have e1 : lidx_main_v5 (ix2 n j) a = ix2 n a :=
    funext fun d => Fin.ext (by match d with | ⟨0, _⟩ => rfl | ⟨1, _⟩ => rfl)
  have e2 : idx_main_v3 (idx_main_v4 (ridx_main_v5 (ix2 n j) a)) = ix3 0 a j :=
    funext fun d => Fin.ext (by
      match d with
      | ⟨0, _⟩ => rfl
      | ⟨1, _⟩ => have := a.isLt; have := j.isLt; show (a.val * 64 + j.val) / 64 % 128 = a.val; omega
      | ⟨2, _⟩ => have := a.isLt; have := j.isLt; show (a.val * 64 + j.val) % 64 = j.val; omega)
  rw [e1, e2]

/-- The forward adjacency of relation 0 applied to that projection, at node r and feature j: the contraction runs
    over the node n, and the adjacency is read at (0, r, n). -/
theorem agg_fw0 (x0 : (⟨S4096x128, .f32⟩ : BufTy).Contents (Elt Ideal)) (x1 : (⟨S2x4096x4096, .f32⟩ : BufTy).Contents (Elt Ideal))
    (x3 : (⟨S2x128x64, .f32⟩ : BufTy).Contents (Elt Ideal)) (r : Fin 4096) (j : Fin 64) :
    val_main_v6 (F := Ideal) x0 x1 x3 (ix2 r j) = Cert.BiGcn.agg x1 x0 x3 0 r j := by
  rw [val_main_v6_apply]
  unfold Cert.BiGcn.agg
  refine Finset.sum_congr rfl fun n _ => ?_
  rw [val_main_v2_apply, val_main_v1_apply]
  have e1 : idx_main_v1 (idx_main_v2 (lidx_main_v6 (ix2 r j) n)) = ix3 0 r n :=
    funext fun d => Fin.ext (by
      match d with
      | ⟨0, _⟩ => rfl
      | ⟨1, _⟩ => have := r.isLt; have := n.isLt; show (r.val * 4096 + n.val) / 4096 % 4096 = r.val; omega
      | ⟨2, _⟩ => have := r.isLt; have := n.isLt; show (r.val * 4096 + n.val) % 4096 = n.val; omega)
  have e2 : ridx_main_v6 (ix2 r j) n = ix2 n j :=
    funext fun d => Fin.ext (by match d with | ⟨0, _⟩ => rfl | ⟨1, _⟩ => rfl)
  rw [e1, e2, proj_fw0]

/-- The forward bias of relation 0, broadcast along the nodes: every node r reads b (0, j). -/
theorem bias_fw0 (x4 : (⟨S2x64, .f32⟩ : BufTy).Contents (Elt Ideal)) (r : Fin 4096) (j : Fin 64) :
    val_main_v10 (F := Ideal) x4 (ix2 r j) = x4 (ix2 0 j) := by
  rw [val_main_v10_apply, val_main_v9_apply, val_main_v8_apply, val_main_v7_apply]
  exact congrArg x4 (funext fun d => Fin.ext (by
    match d with
    | ⟨0, _⟩ => rfl
    | ⟨1, _⟩ => have := j.isLt; show j.val % 64 = j.val; omega))

/-- Relation 0's forward rows: the aggregate plus the bias. -/
theorem row_fw0 (x0 : (⟨S4096x128, .f32⟩ : BufTy).Contents (Elt Ideal)) (x1 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (r : Fin 4096) (j : Fin 64) :
    val_main_v11 (F := Ideal) x0 x1 x3 x4 (ix2 r j) = Cert.BiGcn.agg x1 x0 x3 0 r j + x4 (ix2 0 j) := by
  rw [val_main_v11_apply, Ideal.addf_def, agg_fw0, bias_fw0]

/-! ### Relation 0, backward direction: x2, x5, x6 -/

/-- The projection by the backward weights of relation 0: the weights are read at (0, a, j). -/
theorem proj_bw0 (x0 : (⟨S4096x128, .f32⟩ : BufTy).Contents (Elt Ideal)) (x5 : (⟨S2x128x64, .f32⟩ : BufTy).Contents (Elt Ideal))
    (n : Fin 4096) (j : Fin 64) :
    val_main_v16 (F := Ideal) x0 x5 (ix2 n j) = Cert.BiGcn.proj x0 x5 0 n j := by
  rw [val_main_v16_apply]
  unfold Cert.BiGcn.proj
  refine Finset.sum_congr rfl fun a _ => ?_
  rw [val_main_v15_apply, val_main_v14_apply]
  have e1 : lidx_main_v16 (ix2 n j) a = ix2 n a :=
    funext fun d => Fin.ext (by match d with | ⟨0, _⟩ => rfl | ⟨1, _⟩ => rfl)
  have e2 : idx_main_v14 (idx_main_v15 (ridx_main_v16 (ix2 n j) a)) = ix3 0 a j :=
    funext fun d => Fin.ext (by
      match d with
      | ⟨0, _⟩ => rfl
      | ⟨1, _⟩ => have := a.isLt; have := j.isLt; show (a.val * 64 + j.val) / 64 % 128 = a.val; omega
      | ⟨2, _⟩ => have := a.isLt; have := j.isLt; show (a.val * 64 + j.val) % 64 = j.val; omega)
  rw [e1, e2]

/-- The backward adjacency of relation 0 applied to that projection: the adjacency is read at (0, r, n). -/
theorem agg_bw0 (x0 : (⟨S4096x128, .f32⟩ : BufTy).Contents (Elt Ideal)) (x2 : (⟨S2x4096x4096, .f32⟩ : BufTy).Contents (Elt Ideal))
    (x5 : (⟨S2x128x64, .f32⟩ : BufTy).Contents (Elt Ideal)) (r : Fin 4096) (j : Fin 64) :
    val_main_v17 (F := Ideal) x0 x2 x5 (ix2 r j) = Cert.BiGcn.agg x2 x0 x5 0 r j := by
  rw [val_main_v17_apply]
  unfold Cert.BiGcn.agg
  refine Finset.sum_congr rfl fun n _ => ?_
  rw [val_main_v13_apply, val_main_v12_apply]
  have e1 : idx_main_v12 (idx_main_v13 (lidx_main_v17 (ix2 r j) n)) = ix3 0 r n :=
    funext fun d => Fin.ext (by
      match d with
      | ⟨0, _⟩ => rfl
      | ⟨1, _⟩ => have := r.isLt; have := n.isLt; show (r.val * 4096 + n.val) / 4096 % 4096 = r.val; omega
      | ⟨2, _⟩ => have := r.isLt; have := n.isLt; show (r.val * 4096 + n.val) % 4096 = n.val; omega)
  have e2 : ridx_main_v17 (ix2 r j) n = ix2 n j :=
    funext fun d => Fin.ext (by match d with | ⟨0, _⟩ => rfl | ⟨1, _⟩ => rfl)
  rw [e1, e2, proj_bw0]

/-- The backward bias of relation 0: every node r reads b (0, j). -/
theorem bias_bw0 (x6 : (⟨S2x64, .f32⟩ : BufTy).Contents (Elt Ideal)) (r : Fin 4096) (j : Fin 64) :
    val_main_v21 (F := Ideal) x6 (ix2 r j) = x6 (ix2 0 j) := by
  rw [val_main_v21_apply, val_main_v20_apply, val_main_v19_apply, val_main_v18_apply]
  exact congrArg x6 (funext fun d => Fin.ext (by
    match d with
    | ⟨0, _⟩ => rfl
    | ⟨1, _⟩ => have := j.isLt; show j.val % 64 = j.val; omega))

/-- Relation 0's backward rows: the aggregate plus the bias. -/
theorem row_bw0 (x0 : (⟨S4096x128, .f32⟩ : BufTy).Contents (Elt Ideal)) (x2 : (⟨S2x4096x4096, .f32⟩ : BufTy).Contents (Elt Ideal))
    (x5 : (⟨S2x128x64, .f32⟩ : BufTy).Contents (Elt Ideal)) (x6 : (⟨S2x64, .f32⟩ : BufTy).Contents (Elt Ideal))
    (r : Fin 4096) (j : Fin 64) :
    val_main_v22 (F := Ideal) x0 x2 x5 x6 (ix2 r j) = Cert.BiGcn.agg x2 x0 x5 0 r j + x6 (ix2 0 j) := by
  rw [val_main_v22_apply, Ideal.addf_def, agg_bw0, bias_bw0]

/-! ### Relation 1, forward direction: the slices start at 1, so the stacked arrays are read at (1, ., .) -/

/-- The projection by the forward weights of relation 1: the weights are read at (1, a, j). -/
theorem proj_fw1 (x0 : (⟨S4096x128, .f32⟩ : BufTy).Contents (Elt Ideal)) (x3 : (⟨S2x128x64, .f32⟩ : BufTy).Contents (Elt Ideal))
    (n : Fin 4096) (j : Fin 64) :
    val_main_v29 (F := Ideal) x0 x3 (ix2 n j) = Cert.BiGcn.proj x0 x3 1 n j := by
  rw [val_main_v29_apply]
  unfold Cert.BiGcn.proj
  refine Finset.sum_congr rfl fun a _ => ?_
  rw [val_main_v28_apply, val_main_v27_apply]
  have e1 : lidx_main_v29 (ix2 n j) a = ix2 n a :=
    funext fun d => Fin.ext (by match d with | ⟨0, _⟩ => rfl | ⟨1, _⟩ => rfl)
  have e2 : idx_main_v27 (idx_main_v28 (ridx_main_v29 (ix2 n j) a)) = ix3 1 a j :=
    funext fun d => Fin.ext (by
      match d with
      | ⟨0, _⟩ => show 1 + 0 = 1; rfl
      | ⟨1, _⟩ => have := a.isLt; have := j.isLt; show (a.val * 64 + j.val) / 64 % 128 = a.val; omega
      | ⟨2, _⟩ => have := a.isLt; have := j.isLt; show (a.val * 64 + j.val) % 64 = j.val; omega)
  rw [e1, e2]

/-- The forward adjacency of relation 1 applied to that projection: the adjacency is read at (1, r, n). -/
theorem agg_fw1 (x0 : (⟨S4096x128, .f32⟩ : BufTy).Contents (Elt Ideal)) (x1 : (⟨S2x4096x4096, .f32⟩ : BufTy).Contents (Elt Ideal))
    (x3 : (⟨S2x128x64, .f32⟩ : BufTy).Contents (Elt Ideal)) (r : Fin 4096) (j : Fin 64) :
    val_main_v30 (F := Ideal) x0 x1 x3 (ix2 r j) = Cert.BiGcn.agg x1 x0 x3 1 r j := by
  rw [val_main_v30_apply]
  unfold Cert.BiGcn.agg
  refine Finset.sum_congr rfl fun n _ => ?_
  rw [val_main_v26_apply, val_main_v25_apply]
  have e1 : idx_main_v25 (idx_main_v26 (lidx_main_v30 (ix2 r j) n)) = ix3 1 r n :=
    funext fun d => Fin.ext (by
      match d with
      | ⟨0, _⟩ => show 1 + 0 = 1; rfl
      | ⟨1, _⟩ => have := r.isLt; have := n.isLt; show (r.val * 4096 + n.val) / 4096 % 4096 = r.val; omega
      | ⟨2, _⟩ => have := r.isLt; have := n.isLt; show (r.val * 4096 + n.val) % 4096 = n.val; omega)
  have e2 : ridx_main_v30 (ix2 r j) n = ix2 n j :=
    funext fun d => Fin.ext (by match d with | ⟨0, _⟩ => rfl | ⟨1, _⟩ => rfl)
  rw [e1, e2, proj_fw1]

/-- The forward bias of relation 1: every node r reads b (1, j). -/
theorem bias_fw1 (x4 : (⟨S2x64, .f32⟩ : BufTy).Contents (Elt Ideal)) (r : Fin 4096) (j : Fin 64) :
    val_main_v34 (F := Ideal) x4 (ix2 r j) = x4 (ix2 1 j) := by
  rw [val_main_v34_apply, val_main_v33_apply, val_main_v32_apply, val_main_v31_apply]
  exact congrArg x4 (funext fun d => Fin.ext (by
    match d with
    | ⟨0, _⟩ => show 1 + 0 = 1; rfl
    | ⟨1, _⟩ => have := j.isLt; show j.val % 64 = j.val; omega))

/-- Relation 1's forward rows: the aggregate plus the bias. -/
theorem row_fw1 (x0 : (⟨S4096x128, .f32⟩ : BufTy).Contents (Elt Ideal)) (x1 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (r : Fin 4096) (j : Fin 64) :
    val_main_v35 (F := Ideal) x0 x1 x3 x4 (ix2 r j) = Cert.BiGcn.agg x1 x0 x3 1 r j + x4 (ix2 1 j) := by
  rw [val_main_v35_apply, Ideal.addf_def, agg_fw1, bias_fw1]

/-! ### Relation 1, backward direction -/

/-- The projection by the backward weights of relation 1: the weights are read at (1, a, j). -/
theorem proj_bw1 (x0 : (⟨S4096x128, .f32⟩ : BufTy).Contents (Elt Ideal)) (x5 : (⟨S2x128x64, .f32⟩ : BufTy).Contents (Elt Ideal))
    (n : Fin 4096) (j : Fin 64) :
    val_main_v40 (F := Ideal) x0 x5 (ix2 n j) = Cert.BiGcn.proj x0 x5 1 n j := by
  rw [val_main_v40_apply]
  unfold Cert.BiGcn.proj
  refine Finset.sum_congr rfl fun a _ => ?_
  rw [val_main_v39_apply, val_main_v38_apply]
  have e1 : lidx_main_v40 (ix2 n j) a = ix2 n a :=
    funext fun d => Fin.ext (by match d with | ⟨0, _⟩ => rfl | ⟨1, _⟩ => rfl)
  have e2 : idx_main_v38 (idx_main_v39 (ridx_main_v40 (ix2 n j) a)) = ix3 1 a j :=
    funext fun d => Fin.ext (by
      match d with
      | ⟨0, _⟩ => show 1 + 0 = 1; rfl
      | ⟨1, _⟩ => have := a.isLt; have := j.isLt; show (a.val * 64 + j.val) / 64 % 128 = a.val; omega
      | ⟨2, _⟩ => have := a.isLt; have := j.isLt; show (a.val * 64 + j.val) % 64 = j.val; omega)
  rw [e1, e2]

/-- The backward adjacency of relation 1 applied to that projection: the adjacency is read at (1, r, n). -/
theorem agg_bw1 (x0 : (⟨S4096x128, .f32⟩ : BufTy).Contents (Elt Ideal)) (x2 : (⟨S2x4096x4096, .f32⟩ : BufTy).Contents (Elt Ideal))
    (x5 : (⟨S2x128x64, .f32⟩ : BufTy).Contents (Elt Ideal)) (r : Fin 4096) (j : Fin 64) :
    val_main_v41 (F := Ideal) x0 x2 x5 (ix2 r j) = Cert.BiGcn.agg x2 x0 x5 1 r j := by
  rw [val_main_v41_apply]
  unfold Cert.BiGcn.agg
  refine Finset.sum_congr rfl fun n _ => ?_
  rw [val_main_v37_apply, val_main_v36_apply]
  have e1 : idx_main_v36 (idx_main_v37 (lidx_main_v41 (ix2 r j) n)) = ix3 1 r n :=
    funext fun d => Fin.ext (by
      match d with
      | ⟨0, _⟩ => show 1 + 0 = 1; rfl
      | ⟨1, _⟩ => have := r.isLt; have := n.isLt; show (r.val * 4096 + n.val) / 4096 % 4096 = r.val; omega
      | ⟨2, _⟩ => have := r.isLt; have := n.isLt; show (r.val * 4096 + n.val) % 4096 = n.val; omega)
  have e2 : ridx_main_v41 (ix2 r j) n = ix2 n j :=
    funext fun d => Fin.ext (by match d with | ⟨0, _⟩ => rfl | ⟨1, _⟩ => rfl)
  rw [e1, e2, proj_bw1]

/-- The backward bias of relation 1: every node r reads b (1, j). -/
theorem bias_bw1 (x6 : (⟨S2x64, .f32⟩ : BufTy).Contents (Elt Ideal)) (r : Fin 4096) (j : Fin 64) :
    val_main_v45 (F := Ideal) x6 (ix2 r j) = x6 (ix2 1 j) := by
  rw [val_main_v45_apply, val_main_v44_apply, val_main_v43_apply, val_main_v42_apply]
  exact congrArg x6 (funext fun d => Fin.ext (by
    match d with
    | ⟨0, _⟩ => show 1 + 0 = 1; rfl
    | ⟨1, _⟩ => have := j.isLt; show j.val % 64 = j.val; omega))

/-- Relation 1's backward rows: the aggregate plus the bias. -/
theorem row_bw1 (x0 : (⟨S4096x128, .f32⟩ : BufTy).Contents (Elt Ideal)) (x2 : (⟨S2x4096x4096, .f32⟩ : BufTy).Contents (Elt Ideal))
    (x5 : (⟨S2x128x64, .f32⟩ : BufTy).Contents (Elt Ideal)) (x6 : (⟨S2x64, .f32⟩ : BufTy).Contents (Elt Ideal))
    (r : Fin 4096) (j : Fin 64) :
    val_main_v46 (F := Ideal) x0 x2 x5 x6 (ix2 r j) = Cert.BiGcn.agg x2 x0 x5 1 r j + x6 (ix2 1 j) := by
  rw [val_main_v46_apply, Ideal.addf_def, agg_bw1, bias_bw1]

/-! ### The joined rows: backward in columns 0..63, forward in columns 64..127 -/

/-- Relation 0's joined rows in a backward column k = j: the first piece at the same column. -/
theorem cat0_lt (x0 : (⟨S4096x128, .f32⟩ : BufTy).Contents (Elt Ideal)) (x1 x2 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (x5 : (⟨S2x128x64, .f32⟩ : BufTy).Contents (Elt Ideal)) (x6 : (⟨S2x64, .f32⟩ : BufTy).Contents (Elt Ideal))
    (r : Fin 4096) (k : Fin 128) (j : Fin 64) (h : k.val = j.val) :
    val_main_v23 (F := Ideal) x0 x1 x2 x3 x4 x5 x6 (ix2 r k) = val_main_v22 (F := Ideal) x0 x2 x5 x6 (ix2 r j) := by
  unfold val_main_v23
  exact concatenate_pair_apply_left 1 _ _ concatenates_S4096x64_S4096x64_S4096x128_d1 (ix2 r k) rfl (ix2 r j)
    (fun b => match b with
      | ⟨0, _⟩ => rfl
      | ⟨1, _⟩ => h.symm)

/-- Relation 0's joined rows in a forward column k = 64 + j: the second piece, 64 columns to the left. -/
theorem cat0_ge (x0 : (⟨S4096x128, .f32⟩ : BufTy).Contents (Elt Ideal)) (x1 x2 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (x5 : (⟨S2x128x64, .f32⟩ : BufTy).Contents (Elt Ideal)) (x6 : (⟨S2x64, .f32⟩ : BufTy).Contents (Elt Ideal))
    (r : Fin 4096) (k : Fin 128) (j : Fin 64) (h : k.val = 64 + j.val) :
    val_main_v23 (F := Ideal) x0 x1 x2 x3 x4 x5 x6 (ix2 r k) = val_main_v11 (F := Ideal) x0 x1 x3 x4 (ix2 r j) := by
  unfold val_main_v23
  exact concatenate_pair_apply_right 1 _ _ concatenates_S4096x64_S4096x64_S4096x128_d1 (ix2 r k) rfl rfl (ix2 r j)
    (fun b => match b with
      | ⟨0, _⟩ => fun _ => rfl
      | ⟨1, _⟩ => fun hb => absurd rfl hb)
    (by show j.val + 64 = k.val; omega)

/-- Relation 1's joined rows in a backward column. -/
theorem cat1_lt (x0 : (⟨S4096x128, .f32⟩ : BufTy).Contents (Elt Ideal)) (x1 x2 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (x5 : (⟨S2x128x64, .f32⟩ : BufTy).Contents (Elt Ideal)) (x6 : (⟨S2x64, .f32⟩ : BufTy).Contents (Elt Ideal))
    (r : Fin 4096) (k : Fin 128) (j : Fin 64) (h : k.val = j.val) :
    val_main_v47 (F := Ideal) x0 x1 x2 x3 x4 x5 x6 (ix2 r k) = val_main_v46 (F := Ideal) x0 x2 x5 x6 (ix2 r j) := by
  unfold val_main_v47
  exact concatenate_pair_apply_left 1 _ _ concatenates_S4096x64_S4096x64_S4096x128_d1 (ix2 r k) rfl (ix2 r j)
    (fun b => match b with
      | ⟨0, _⟩ => rfl
      | ⟨1, _⟩ => h.symm)

/-- Relation 1's joined rows in a forward column. -/
theorem cat1_ge (x0 : (⟨S4096x128, .f32⟩ : BufTy).Contents (Elt Ideal)) (x1 x2 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (x5 : (⟨S2x128x64, .f32⟩ : BufTy).Contents (Elt Ideal)) (x6 : (⟨S2x64, .f32⟩ : BufTy).Contents (Elt Ideal))
    (r : Fin 4096) (k : Fin 128) (j : Fin 64) (h : k.val = 64 + j.val) :
    val_main_v47 (F := Ideal) x0 x1 x2 x3 x4 x5 x6 (ix2 r k) = val_main_v35 (F := Ideal) x0 x1 x3 x4 (ix2 r j) := by
  unfold val_main_v47
  exact concatenate_pair_apply_right 1 _ _ concatenates_S4096x64_S4096x64_S4096x128_d1 (ix2 r k) rfl rfl (ix2 r j)
    (fun b => match b with
      | ⟨0, _⟩ => fun _ => rfl
      | ⟨1, _⟩ => fun hb => absurd rfl hb)
    (by show j.val + 64 = k.val; omega)

/-! ### The sum over the relations, and the result -/

/-- The array the sum over the relations starts from is 0 everywhere. -/
theorem zero_start (i : S4096x128.Idx) : val_main_v0 (F := Ideal) i = 0 := by
  rw [val_main_v0_apply, val_main_cst_apply, Ideal.ofBits_def, Ideal.ofBits_zero_f32]

/-- The array the rectifier compares with is 0 everywhere. -/
theorem zero_relu (i : S4096x128.Idx) : val_main_call0_v0 (F := Ideal) i = 0 := by
  rw [val_main_call0_v0_apply, val_main_call0_cst_apply, Ideal.ofBits_def, Ideal.ofBits_zero_f32]

/-- The sum over the two relations at node r, column k, is the pre-activation there: in a backward column both joined
    arrays read their backward rows, in a forward column their forward rows, and the four terms regroup. -/
theorem sum_is_pre (x0 : (⟨S4096x128, .f32⟩ : BufTy).Contents (Elt Ideal)) (x1 x2 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (x5 : (⟨S2x128x64, .f32⟩ : BufTy).Contents (Elt Ideal)) (x6 : (⟨S2x64, .f32⟩ : BufTy).Contents (Elt Ideal))
    (r : Fin 4096) (k : Fin 128) :
    val_main_v48 (F := Ideal) x0 x1 x2 x3 x4 x5 x6 (ix2 r k) = Cert.BiGcn.pre x0 x1 x2 x3 x4 x5 x6 r k := by
  rw [val_main_v48_apply, val_main_v24_apply, Ideal.addf_def, Ideal.addf_def, zero_start]
  by_cases hk : k.val < 64
  · rw [Cert.BiGcn.pre_lt x0 x1 x2 x3 x4 x5 x6 r k ⟨k.val, hk⟩ rfl,
      cat0_lt x0 x1 x2 x3 x4 x5 x6 r k ⟨k.val, hk⟩ rfl, cat1_lt x0 x1 x2 x3 x4 x5 x6 r k ⟨k.val, hk⟩ rfl,
      row_bw0, row_bw1]
    unfold Cert.BiGcn.half
    exact Cert.BiGcn.add_by_relation _ _ _ _
  · have hlt : k.val - 64 < 64 := by have := k.isLt; omega
    have he : k.val = 64 + (⟨k.val - 64, hlt⟩ : Fin 64).val := by show k.val = 64 + (k.val - 64); omega
    rw [Cert.BiGcn.pre_ge x0 x1 x2 x3 x4 x5 x6 r k ⟨k.val - 64, hlt⟩ he,
      cat0_ge x0 x1 x2 x3 x4 x5 x6 r k ⟨k.val - 64, hlt⟩ he, cat1_ge x0 x1 x2 x3 x4 x5 x6 r k ⟨k.val - 64, hlt⟩ he,
      row_fw0, row_fw1]
    unfold Cert.BiGcn.half
    exact Cert.BiGcn.add_by_relation _ _ _ _

/-- The reference's result is the stated value: at node r, feature c, the output layer contracts the rectified
    pre-activation at (r, k) with the transposed matrix at (k, c), which is W1 at (c, k); the output bias is read at c
    and the node features at (r, c). -/
theorem ref_is_out (x0 : (⟨S4096x128, .f32⟩ : BufTy).Contents (Elt Ideal)) (x1 x2 : (⟨S2x4096x4096, .f32⟩ : BufTy).Contents (Elt Ideal))
    (x3 : (⟨S2x128x64, .f32⟩ : BufTy).Contents (Elt Ideal)) (x4 : (⟨S2x64, .f32⟩ : BufTy).Contents (Elt Ideal))
    (x5 : (⟨S2x128x64, .f32⟩ : BufTy).Contents (Elt Ideal)) (x6 : (⟨S2x64, .f32⟩ : BufTy).Contents (Elt Ideal))
    (x7 : (⟨S128x128, .f32⟩ : BufTy).Contents (Elt Ideal)) (x8 : (⟨S128, .f32⟩ : BufTy).Contents (Elt Ideal)) :
    Cert.ReferenceIdeal.Read.val_main_v55 (F := Ideal) x0 x1 x2 x3 x4 x5 x6 x7 x8 = Cert.BiGcn.out x0 x1 x2 x3 x4 x5 x6 x7 x8 := by
  funext y
  obtain ⟨r, c, rfl⟩ : ∃ (r : Fin 4096) (c : Fin 128), y = ix2 r c := ⟨y 0, y 1, eq_ix2 y⟩
  rw [Cert.BiGcn.out_ix2]
  unfold Cert.BiGcn.outAt
  rw [val_main_v55_apply, val_main_v54_apply, val_main_v53_apply, val_main_v52_apply, val_main_v51_apply,
    Ideal.addf_def, Ideal.addf_def]
  have eb : idx_main_v52 (idx_main_v53 (ix2 r c)) = ix1 c :=
    funext fun d => Fin.ext (by match d with | ⟨0, _⟩ => rfl)
  rw [eb]
  congr 2
  refine Finset.sum_congr rfl fun k _ => ?_
  have el : lidx_main_v51 (ix2 r c) k = ix2 r k :=
    funext fun d => Fin.ext (by match d with | ⟨0, _⟩ => rfl | ⟨1, _⟩ => rfl)
  have er : idx_main_v50 (ridx_main_v51 (ix2 r c) k) = ix2 c k :=
    funext fun d => Fin.ext (by match d with | ⟨0, _⟩ => rfl | ⟨1, _⟩ => rfl)
  rw [val_main_v50_apply, el, er, val_main_v49_apply, Ideal.maximumf_def, zero_relu, sum_is_pre]

end Cert.BiGcn.Ref

end
-- ==== Proof.lean ====
/-
  A two-relation, two-direction graph-convolution layer: node features x (4096 x 128); for each relation i a forward
  and a backward adjacency matrix (4096 x 4096) with weights (128 x 64) and a bias (64); an output layer W1 (128 x 128),
  b1 (128). With
      pre r k = sum over i of ( sum over n of A_i r n * (x . W_i) n j  +  b_i j ),
  taken with the backward data in columns k = j < 64 and the forward data in columns k = 64 + j, the result is
      out r c = ( sum over k of max (pre r k) 0 * W1 c k  +  b1 c )  +  x r c.

  The kernel computes it block by block: 16 grid points, each writing 256 rows. The first point also fills a scratch
  with the four projections x . W, which every later point reads; per half it adds the two relations' products first
  and the two biases afterwards, and it contracts W1 on its second coordinate instead of transposing it. The reference
  computes it array by array: per relation the product plus its bias, relation 0 added to a zero array first.

  Over the extended reals the two are the same function of the arguments (Spec): the only difference in the
  arithmetic is the order in which four terms are added, and addition there is commutative and associative with 0 as
  unit. No distributivity is used, so the finiteness of the inputs is never needed.

  The kernel's result array is that function (Blocks, over Pieces and KernelAt), the reference's is too (RefValue);
  the frames are the generated runs; the idealization rewrote nothing.
-/
import proofs.«176645_g10471130268014_cont_sun_c4_278_25_alg».proof.Defs
import proofs.«176645_g10471130268014_cont_sun_c4_278_25_alg».proof.Proof.Gen.Kernel
import proofs.«176645_g10471130268014_cont_sun_c4_278_25_alg».proof.Proof.Gen.Kernel.Skeleton
import proofs.«176645_g10471130268014_cont_sun_c4_278_25_alg».proof.Proof.Gen.Kernel.Launch
import proofs.«176645_g10471130268014_cont_sun_c4_278_25_alg».proof.Proof.Gen.Kernel.Points
import proofs.«176645_g10471130268014_cont_sun_c4_278_25_alg».proof.Proof.Gen.Kernel.Frame
import proofs.«176645_g10471130268014_cont_sun_c4_278_25_alg».proof.Proof.Gen.KernelIdeal
import proofs.«176645_g10471130268014_cont_sun_c4_278_25_alg».proof.Proof.Gen.KernelIdeal.Skeleton
import proofs.«176645_g10471130268014_cont_sun_c4_278_25_alg».proof.Proof.Gen.KernelIdeal.Launch
import proofs.«176645_g10471130268014_cont_sun_c4_278_25_alg».proof.Proof.Gen.KernelIdeal.Points
import proofs.«176645_g10471130268014_cont_sun_c4_278_25_alg».proof.Proof.Gen.KernelIdeal.Frame
import proofs.«176645_g10471130268014_cont_sun_c4_278_25_alg».proof.Proof.Gen.ReferenceIdeal
import proofs.«176645_g10471130268014_cont_sun_c4_278_25_alg».proof.Proof.Gen.Pre_finite_inputs
import proofs.«176645_g10471130268014_cont_sun_c4_278_25_alg».proof.Proof.Gen.KernelIdeal.Value
import proofs.«176645_g10471130268014_cont_sun_c4_278_25_alg».proof.Proof.Gen.ReferenceIdeal.Run
import proofs.«176645_g10471130268014_cont_sun_c4_278_25_alg».proof.Proof.Gen.ReferenceIdeal.Read
import proofs.«176645_g10471130268014_cont_sun_c4_278_25_alg».proof.Proof.Blocks
import proofs.«176645_g10471130268014_cont_sun_c4_278_25_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, the kernel's result array and the reference's
    both end at the specified result of those arguments. -/
theorem algebraic : Cert.algebraic_KernelIdeal_ReferenceIdeal := by
  intro m ρ m' ρ' _ hagree
  refine ⟨fun c => Cert.BiGcn.Blocks.result m c, Cert.BiGcn.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v55_eq _ _ _ _ _ _ _ _ _).trans ?_
  refine (Cert.BiGcn.Ref.ref_is_out _ _ _ _ _ _ _ _ _).trans ?_
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
